-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1x28x28 : Shape := ⟨4, ![16384, 1, 28, 28]⟩
abbrev S2048x784 : Shape := ⟨2, ![2048, 784]⟩
abbrev S2048 : Shape := ⟨1, ![2048]⟩
abbrev S2048x2048 : Shape := ⟨2, ![2048, 2048]⟩
abbrev S10x2048 : Shape := ⟨2, ![10, 2048]⟩
abbrev S10 : Shape := ⟨1, ![10]⟩
abbrev S_ : Shape := ⟨0, ![]⟩

class Facts : Prop where
  bcast_S_S16384x1x28x28 : S_.BroadcastsInDim S16384x1x28x28 (![] : Fin 0 → Fin S16384x1x28x28.rank)
  reducesTo_S16384x1x28x28_S_d0_1_2_3 : S16384x1x28x28.ReducesTo [0, 1, 2, 3] S_
  h_S_ : 0 < S_.numel
  bcast_S_S2048x784 : S_.BroadcastsInDim S2048x784 (![] : Fin 0 → Fin S2048x784.rank)
  reducesTo_S2048x784_S_d0_1 : S2048x784.ReducesTo [0, 1] S_
  bcast_S_S2048 : S_.BroadcastsInDim S2048 (![] : Fin 0 → Fin S2048.rank)
  reducesTo_S2048_S_d0 : S2048.ReducesTo [0] S_
  bcast_S_S2048x2048 : S_.BroadcastsInDim S2048x2048 (![] : Fin 0 → Fin S2048x2048.rank)
  reducesTo_S2048x2048_S_d0_1 : S2048x2048.ReducesTo [0, 1] S_
  bcast_S_S10x2048 : S_.BroadcastsInDim S10x2048 (![] : Fin 0 → Fin S10x2048.rank)
  reducesTo_S10x2048_S_d0_1 : S10x2048.ReducesTo [0, 1] S_
  bcast_S_S10 : S_.BroadcastsInDim S10 (![] : Fin 0 → Fin S10.rank)
  reducesTo_S10_S_d0 : S10.ReducesTo [0] S_
  reducesTo_S_S_d : S_.ReducesTo [] S_

variable [Facts]

def fn_part4 {F : FTy → Type} [FloatOps F] (main_arg14 : FVec F S10 .f32) (main_arg15 : FVec F S_ .f32) (main_v63 : IVec S_ 1) (main_v67 : IVec S_ 1) : IVec S_ 1 :=
  let main_v68 : IVec S_ 1 := andi main_v63 main_v67
  let main_v69 : FVec F S10 .f32 := Host.absf main_arg14
  let main_cst_26 : FVec F S_ .f32 := constant S_ .f32 0x7F800000#32
  let main_v70 : FVec F S10 .f32 := broadcastInDim S10 ![] bcast_S_S10 main_cst_26
  let main_v71 : IVec S10 1 := cmpf .olt main_v69 main_v70
  let main_c_27 : IVec S_ 1 := constantI S_ 1 1#1
  let main_v72 : IVec S_ 1 := (fun x v => Host.reduce IntOp.andi x v reducesTo_S10_S_d0 h_S_) main_v71 main_c_27
  let main_v73 : IVec S_ 1 := andi main_v68 main_v72
  let main_v74 : FVec F S_ .f32 := Host.absf main_arg15
  let main_cst_28 : FVec F S_ .f32 := constant S_ .f32 0x7F800000#32
  let main_v75 : IVec S_ 1 := cmpf .olt main_v74 main_cst_28
  let main_c_29 : IVec S_ 1 := constantI S_ 1 1#1
  let main_v76 : IVec S_ 1 := (fun x v => Host.reduce IntOp.andi x v reducesTo_S_S_d h_S_) main_v75 main_c_29
  let main_v77 : IVec S_ 1 := andi main_v73 main_v76
  main_v77

def fn_part3 {F : FTy → Type} [FloatOps F] (main_arg11 : FVec F S2048 .f32) (main_arg12 : FVec F S2048 .f32) (main_arg13 : FVec F S10x2048 .f32) (main_arg14 : FVec F S10 .f32) (main_arg15 : FVec F S_ .f32) (main_v48 : IVec S_ 1) (main_v49 : FVec F S2048 .f32) (main_v50 : FVec F S2048 .f32) : IVec S_ 1 :=
  let main_v51 : IVec S2048 1 := cmpf .olt main_v49 main_v50
  let main_c_19 : IVec S_ 1 := constantI S_ 1 1#1
  let main_v52 : IVec S_ 1 := (fun x v => Host.reduce IntOp.andi x v reducesTo_S2048_S_d0 h_S_) main_v51 main_c_19
  let main_v53 : IVec S_ 1 := andi main_v48 main_v52
  let main_v54 : FVec F S2048 .f32 := Host.absf main_arg11
  let main_cst_20 : FVec F S_ .f32 := constant S_ .f32 0x7F800000#32
  let main_v55 : FVec F S2048 .f32 := broadcastInDim S2048 ![] bcast_S_S2048 main_cst_20
  let main_v56 : IVec S2048 1 := cmpf .olt main_v54 main_v55
  let main_c_21 : IVec S_ 1 := constantI S_ 1 1#1
  let main_v57 : IVec S_ 1 := (fun x v => Host.reduce IntOp.andi x v reducesTo_S2048_S_d0 h_S_) main_v56 main_c_21
  let main_v58 : IVec S_ 1 := andi main_v53 main_v57
  let main_v59 : FVec F S2048 .f32 := Host.absf main_arg12
  let main_cst_22 : FVec F S_ .f32 := constant S_ .f32 0x7F800000#32
  let main_v60 : FVec F S2048 .f32 := broadcastInDim S2048 ![] bcast_S_S2048 main_cst_22
  let main_v61 : IVec S2048 1 := cmpf .olt main_v59 main_v60
  let main_c_23 : IVec S_ 1 := constantI S_ 1 1#1
  let main_v62 : IVec S_ 1 := (fun x v => Host.reduce IntOp.andi x v reducesTo_S2048_S_d0 h_S_) main_v61 main_c_23
  let main_v63 : IVec S_ 1 := andi main_v58 main_v62
  let main_v64 : FVec F S10x2048 .f32 := Host.absf main_arg13
  let main_cst_24 : FVec F S_ .f32 := constant S_ .f32 0x7F800000#32
  let main_v65 : FVec F S10x2048 .f32 := broadcastInDim S10x2048 ![] bcast_S_S10x2048 main_cst_24
  let main_v66 : IVec S10x2048 1 := cmpf .olt main_v64 main_v65
  let main_c_25 : IVec S_ 1 := constantI S_ 1 1#1
  let main_v67 : IVec S_ 1 := (fun x v => Host.reduce IntOp.andi x v reducesTo_S10x2048_S_d0_1 h_S_) main_v66 main_c_25
  fn_part4 (F := F) main_arg14 main_arg15 main_v63 main_v67

def fn_part2 {F : FTy → Type} [FloatOps F] (main_arg7 : FVec F S2048x2048 .f32) (main_arg8 : FVec F S2048 .f32) (main_arg9 : FVec F S2048 .f32) (main_arg10 : FVec F S2048 .f32) (main_arg11 : FVec F S2048 .f32) (main_arg12 : FVec F S2048 .f32) (main_arg13 : FVec F S10x2048 .f32) (main_arg14 : FVec F S10 .f32) (main_arg15 : FVec F S_ .f32) (main_v33 : IVec S_ 1) : IVec S_ 1 :=
  let main_v34 : FVec F S2048x2048 .f32 := Host.absf main_arg7
  let main_cst_12 : FVec F S_ .f32 := constant S_ .f32 0x7F800000#32
  let main_v35 : FVec F S2048x2048 .f32 := broadcastInDim S2048x2048 ![] bcast_S_S2048x2048 main_cst_12
  let main_v36 : IVec S2048x2048 1 := cmpf .olt main_v34 main_v35
  let main_c_13 : IVec S_ 1 := constantI S_ 1 1#1
  let main_v37 : IVec S_ 1 := (fun x v => Host.reduce IntOp.andi x v reducesTo_S2048x2048_S_d0_1 h_S_) main_v36 main_c_13
  let main_v38 : IVec S_ 1 := andi main_v33 main_v37
  let main_v39 : FVec F S2048 .f32 := Host.absf main_arg8
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  let main_v44 : FVec F S2048 .f32 := Host.absf main_arg9
  let main_cst_16 : FVec F S_ .f32 := constant S_ .f32 0x7F800000#32
  let main_v45 : FVec F S2048 .f32 := broadcastInDim S2048 ![] bcast_S_S2048 main_cst_16
  let main_v46 : IVec S2048 1 := cmpf .olt main_v44 main_v45
  let main_c_17 : IVec S_ 1 := constantI S_ 1 1#1
  let main_v47 : IVec S_ 1 := (fun x v => Host.reduce IntOp.andi x v reducesTo_S2048_S_d0 h_S_) main_v46 main_c_17
  let main_v48 : IVec S_ 1 := andi main_v43 main_v47
  let main_v49 : FVec F S2048 .f32 := Host.absf main_arg10
  let main_cst_18 : FVec F S_ .f32 := constant S_ .f32 0x7F800000#32
  let main_v50 : FVec F S2048 .f32 := broadcastInDim S2048 ![] bcast_S_S2048 main_cst_18
  fn_part3 (F := F) main_arg11 main_arg12 main_arg13 main_arg14 main_arg15 main_v48 main_v49 main_v50

def fn_part1 {F : FTy → Type} [FloatOps F] (main_arg4 : FVec F S2048 .f32) (main_arg5 : FVec F S2048 .f32) (main_arg6 : FVec F S2048 .f32) (main_arg7 : FVec F S2048x2048 .f32) (main_arg8 : FVec F S2048 .f32) (main_arg9 : FVec F S2048 .f32) (main_arg10 : FVec F S2048 .f32) (main_arg11 : FVec F S2048 .f32) (main_arg12 : FVec F S2048 .f32) (main_arg13 : FVec F S10x2048 .f32) (main_arg14 : FVec F S10 .f32) (main_arg15 : FVec F S_ .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S16384x1x28x28 .f32) (main_arg1 : FVec F S2048x784 .f32) (main_arg2 : FVec F S2048 .f32) (main_arg3 : FVec F S2048 .f32) (main_arg4 : FVec F S2048 .f32) (main_arg5 : FVec F S2048 .f32) (main_arg6 : FVec F S2048 .f32) (main_arg7 : FVec F S2048x2048 .f32) (main_arg8 : FVec F S2048 .f32) (main_arg9 : FVec F S2048 .f32) (main_arg10 : FVec F S2048 .f32) (main_arg11 : FVec F S2048 .f32) (main_arg12 : FVec F S2048 .f32) (main_arg13 : FVec F S10x2048 .f32) (main_arg14 : FVec F S10 .f32) (main_arg15 : FVec F S_ .f32) : IVec S_ 1 :=
  let main_v0 : FVec F S16384x1x28x28 .f32 := Host.absf main_arg0
  let main_cst : FVec F S_ .f32 := constant S_ .f32 0x7F800000#32
  let main_v1 : FVec F S16384x1x28x28 .f32 := broadcastInDim S16384x1x28x28 ![] bcast_S_S16384x1x28x28 main_cst
  let main_v2 : IVec S16384x1x28x28 1 := cmpf .olt main_v0 main_v1
  let main_c : IVec S_ 1 := constantI S_ 1 1#1
  let main_v3 : IVec S_ 1 := (fun x v => Host.reduce IntOp.andi x v reducesTo_S16384x1x28x28_S_d0_1_2_3 h_S_) main_v2 main_c
  let main_v4 : FVec F S2048x784 .f32 := Host.absf main_arg1
  let main_cst_0 : FVec F S_ .f32 := constant S_ .f32 0x7F800000#32
  let main_v5 : FVec F S2048x784 .f32 := broadcastInDim S2048x784 ![] bcast_S_S2048x784 main_cst_0
  let main_v6 : IVec S2048x784 1 := cmpf .olt main_v4 main_v5
  let main_c_1 : IVec S_ 1 := constantI S_ 1 1#1
  let main_v7 : IVec S_ 1 := (fun x v => Host.reduce IntOp.andi x v reducesTo_S2048x784_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S16384x1x28x28 : Shape := ⟨4, ![16384, 1, 28, 28]⟩
abbrev S2048x784 : Shape := ⟨2, ![2048, 784]⟩
abbrev S2048 : Shape := ⟨1, ![2048]⟩
abbrev S2048x2048 : Shape := ⟨2, ![2048, 2048]⟩
abbrev S10x2048 : Shape := ⟨2, ![10, 2048]⟩
abbrev S10 : Shape := ⟨1, ![10]⟩
abbrev S_ : Shape := ⟨0, ![]⟩
abbrev S16384x784 : Shape := ⟨2, ![16384, 784]⟩
abbrev S784x2048 : Shape := ⟨2, ![784, 2048]⟩
abbrev S2048x10 : Shape := ⟨2, ![2048, 10]⟩
abbrev S1x2048 : Shape := ⟨2, ![1, 2048]⟩
abbrev S1x10 : Shape := ⟨2, ![1, 10]⟩
abbrev S16384x10 : Shape := ⟨2, ![16384, 10]⟩
abbrev S256x784 : Shape := ⟨2, ![256, 784]⟩
abbrev S256x10 : Shape := ⟨2, ![256, 10]⟩
abbrev S256x2048 : Shape := ⟨2, ![256, 2048]⟩

abbrev nBuf : Space → Nat
  | .hbm => 74
  | .vmem => 14
  | .smem => 0
  | _ => 0

abbrev bufTy : (tb : Table) → Fin (tcTables nBuf tb) → BufTy
  | .hbm, ⟨0, _⟩ => ⟨S16384x1x28x28, .f32⟩
  | .hbm, ⟨1, _⟩ => ⟨S2048x784, .f32⟩
  | .hbm, ⟨2, _⟩ => ⟨S2048, .f32⟩
  | .hbm, ⟨3, _⟩ => ⟨S2048, .f32⟩
  | .hbm, ⟨4, _⟩ => ⟨S2048, .f32⟩
  | .hbm, ⟨5, _⟩ => ⟨S2048, .f32⟩
  | .hbm, ⟨6, _⟩ => ⟨S2048, .f32⟩
  | .hbm, ⟨7, _⟩ => ⟨S2048x2048, .f32⟩
  | .hbm, ⟨8, _⟩ => ⟨S2048, .f32⟩
  | .hbm, ⟨9, _⟩ => ⟨S2048, .f32⟩
  | .hbm, ⟨10, _⟩ => ⟨S2048, .f32⟩
  | .hbm, ⟨11, _⟩ => ⟨S2048, .f32⟩
  | .hbm, ⟨12, _⟩ => ⟨S2048, .f32⟩
  | .hbm, ⟨13, _⟩ => ⟨S10x2048, .f32⟩
  | .hbm, ⟨14, _⟩ => ⟨S10, .f32⟩
  | .hbm, ⟨15, _⟩ => ⟨S_, .f32⟩
  | .hbm, ⟨16, _⟩ => ⟨S16384x784, .f32⟩
  | .hbm, ⟨17, _⟩ => ⟨S_, .f32⟩
  | .hbm, ⟨18, _⟩ => ⟨S2048x784, .f32⟩
  | .hbm, ⟨19, _⟩ => ⟨S2048x784, .i1⟩
  | .hbm, ⟨20, _⟩ => ⟨S_, .f32⟩
  | .hbm, ⟨21, _⟩ => ⟨S_, .f32⟩
  | .hbm, ⟨22, _⟩ => ⟨S2048x784, .f32⟩
  | .hbm, ⟨23, _⟩ => ⟨S2048x784, .f32⟩
  | .hbm, ⟨24, _⟩ => ⟨S2048x784, .f32⟩
  | .hbm, ⟨25, _⟩ => ⟨S2048x784, .f32⟩
  | .hbm, ⟨26, _⟩ => ⟨S784x2048, .f32⟩
  | .hbm, ⟨27, _⟩ => ⟨S784x2048, .bf16⟩
  | .hbm, ⟨28, _⟩ => ⟨S_, .f32⟩
  | .hbm, ⟨29, _⟩ => ⟨S2048x2048, .f32⟩
  | .hbm, ⟨30, _⟩ => ⟨S2048x2048, .i1⟩
  | .hbm, ⟨31, _⟩ => ⟨S_, .f32⟩
  | .hbm, ⟨32, _⟩ => ⟨S_, .f32⟩
  | .hbm, ⟨33, _⟩ => ⟨S2048x2048, .f32⟩
  | .hbm, ⟨34, _⟩ => ⟨S2048x2048, .f32⟩
  | .hbm, ⟨35, _⟩ => ⟨S2048x2048, .f32⟩
  | .hbm, ⟨36, _⟩ => ⟨S2048x2048, .f32⟩
  | .hbm, ⟨37, _⟩ => ⟨S2048x2048, .f32⟩
  | .hbm, ⟨38, _⟩ => ⟨S2048x2048, .bf16⟩
  | .hbm, ⟨39, _⟩ => ⟨S_, .f32⟩
  | .hbm, ⟨40, _⟩ => ⟨S10x2048, .f32⟩
  | .hbm, ⟨41, _⟩ => ⟨S10x2048, .i1⟩
  | .hbm, ⟨42, _⟩ => ⟨S_, .f32⟩
  | .hbm, ⟨43, _⟩ => ⟨S_, .f32⟩
  | .hbm, ⟨44, _⟩ => ⟨S10x2048, .f32⟩
  | .hbm, ⟨45, _⟩ => ⟨S10x2048, .f32⟩
  | .hbm, ⟨46, _⟩ => ⟨S10x2048, .f32⟩
  | .hbm, ⟨47, _⟩ => ⟨S10x2048, .f32⟩
  | .hbm, ⟨48, _⟩ => ⟨S2048x10, .f32⟩
  | .hbm, ⟨49, _⟩ => ⟨S2048x10, .bf16⟩
  | .hbm, ⟨50, _⟩ => ⟨S_, .f32⟩
  | .hbm, ⟨51, _⟩ => ⟨S2048, .f32⟩
  | .hbm, ⟨52, _⟩ => ⟨S2048, .f32⟩
  | .hbm, ⟨53, _⟩ => ⟨S2048, .f32⟩
  | .hbm, ⟨54, _⟩ => ⟨S2048, .f32⟩
  | .hbm, ⟨55, _⟩ => ⟨S2048, .f32⟩
  | .hbm, ⟨56, _⟩ => ⟨S2048, .f32⟩
  | .hbm, ⟨57, _⟩ => ⟨S_, .f32⟩
  | .hbm, ⟨58, _⟩ => ⟨S2048, .f32⟩
  | .hbm, ⟨59, _⟩ => ⟨S2048, .f32⟩
  | .hbm, ⟨60, _⟩ => ⟨S2048, .f32⟩
  | .hbm, ⟨61, _⟩ => ⟨S2048, .f32⟩
  | .hbm, ⟨62, _⟩ => ⟨S2048, .f32⟩
  | .hbm, ⟨63, _⟩ => ⟨S2048, .f32⟩
  | .hbm, ⟨64, _⟩ => ⟨S1x2048, .f32⟩
  | .hbm, ⟨65, _⟩ => ⟨S1x2048, .f32⟩
  | .hbm, ⟨66, _⟩ => ⟨S1x2048, .f32⟩
  | .hbm, ⟨67, _⟩ => ⟨S1x2048, .f32⟩
  | .hbm, ⟨68, _⟩ => ⟨S1x2048, .f32⟩
  | .hbm, ⟨69, _⟩ => ⟨S1x2048, .f32⟩
  | .hbm, ⟨70, _⟩ => ⟨S1x10, .f32⟩
  | .hbm, ⟨71, _⟩ => ⟨S16384x10, .f32⟩
  | .hbm, ⟨72, _⟩ => ⟨S16384x10, .f32⟩
  | .hbm, ⟨73, _⟩ => ⟨S16384x10, .f32⟩
  | .local _ .vmem, ⟨0, _⟩ => ⟨S256x784, .f32⟩
  | .local _ .vmem, ⟨1, _⟩ => ⟨S256x784, .f32⟩
  | .local _ .vmem, ⟨2, _⟩ => ⟨S784x2048, .bf16⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | .local _ .vmem, ⟨6, _⟩ => ⟨S2048x2048, .bf16⟩
  | .local _ .vmem, ⟨7, _⟩ => ⟨S1x2048, .f32⟩
  | .local _ .vmem, ⟨8, _⟩ => ⟨S1x2048, .f32⟩
  | .local _ .vmem, ⟨9, _⟩ => ⟨S1x2048, .f32⟩
  | .local _ .vmem, ⟨10, _⟩ => ⟨S2048x10, .bf16⟩
  | .local _ .vmem, ⟨11, _⟩ => ⟨S1x10, .f32⟩
  | .local _ .vmem, ⟨12, _⟩ => ⟨S256x10, .f32⟩
  | .local _ .vmem, ⟨13, _⟩ => ⟨S256x10, .f32⟩
  | _, _ => ⟨S16384x1x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_cst : Ref sig .tc := ⟨.hbm, 17, rfl⟩
abbrev main_v1 : Ref sig .tc := ⟨.hbm, 18, rfl⟩
abbrev main_v2 : Ref sig .tc := ⟨.hbm, 19, rfl⟩
abbrev main_cst_0 : Ref sig .tc := ⟨.hbm, 20, rfl⟩
abbrev main_cst_1 : Ref sig .tc := ⟨.hbm, 21, rfl⟩
abbrev main_call0_v0 : Ref sig .tc := ⟨.hbm, 22, rfl⟩
abbrev main_call0_v1 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_cst_2 : Ref sig .tc := ⟨.hbm, 28, rfl⟩
abbrev main_v7 : Ref sig .tc := ⟨.hbm, 29, rfl⟩
abbrev main_v8 : Ref sig .tc := ⟨.hbm, 30, rfl⟩
abbrev main_cst_3 : Ref sig .tc := ⟨.hbm, 31, rfl⟩
abbrev main_cst_4 : Ref sig .tc := ⟨.hbm, 32, rfl⟩
abbrev main_call1_v0 : Ref sig .tc := ⟨.hbm, 33, rfl⟩
abbrev main_call1_v1 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_cst_5 : Ref sig .tc := ⟨.hbm, 39, rfl⟩
abbrev main_v13 : Ref sig .tc := ⟨.hbm, 40, rfl⟩
abbrev main_v14 : Ref sig .tc := ⟨.hbm, 41, rfl⟩
abbrev main_cst_6 : Ref sig .tc := ⟨.hbm, 42, rfl⟩
abbrev main_cst_7 : Ref sig .tc := ⟨.hbm, 43, rfl⟩
abbrev main_call2_v0 : Ref sig .tc := ⟨.hbm, 44, rfl⟩
abbrev main_call2_v1 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_cst_8 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_cst_9 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S784x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x10 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x10 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x10 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  shapeCasts_S16384x1x28x28_S16384x784 : S16384x1x28x28.ShapeCasts S16384x784
  bcast_S_S2048x784 : S_.BroadcastsInDim S2048x784 (![] : Fin 0 → Fin S2048x784.rank)
  transposes_S2048x784_S784x2048_1_0 : S2048x784.Transposes [1, 0] S784x2048
  bitsLt_bf16_f32 : FTy.bits .bf16 < FTy.bits .f32
  bcast_S_S2048x2048 : S_.BroadcastsInDim S2048x2048 (![] : Fin 0 → Fin S2048x2048.rank)
  transposes_S2048x2048_S2048x2048_1_0 : S2048x2048.Transposes [1, 0] S2048x2048
  bcast_S_S10x2048 : S_.BroadcastsInDim S10x2048 (![] : Fin 0 → Fin S10x2048.rank)
  transposes_S10x2048_S2048x10_1_0 : S10x2048.Transposes [1, 0] S2048x10
  bcast_S_S2048 : S_.BroadcastsInDim S2048 (![] : Fin 0 → Fin S2048.rank)
  shapeCasts_S2048_S1x2048 : S2048.ShapeCasts S1x2048
  shapeCasts_S10_S1x10 : S10.ShapeCasts S1x10
  inb_S256x784_S256x784_0_0 : ∀ a, (![0, 0] : Fin 2 → Nat) a + S256x784.size a ≤ S256x784.size a
  h_S256x784 : 0 < S256x784.numel
  shapeCasts_S256x784_S256x784 : S256x784.ShapeCasts S256x784
  inb_S784x2048_S784x2048_0_0 : ∀ a, (![0, 0] : Fin 2 → Nat) a + S784x2048.size a ≤ S784x2048.size a
  h_S784x2048 : 0 < S784x2048.numel
  shapeCasts_S784x2048_S784x2048 : S784x2048.ShapeCasts S784x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S2048x10_S2048x10_0_0 : ∀ a, (![0, 0] : Fin 2 → Nat) a + S2048x10.size a ≤ S2048x10.size a
  h_S2048x10 : 0 < S2048x10.numel
  shapeCasts_S2048x10_S2048x10 : S2048x10.ShapeCasts S2048x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S256x10 : S1x10.Broadcasts S256x10
  inb_S256x10_S256x10_0_0 : ∀ a, (![0, 0] : Fin 2 → Nat) a + S256x10.size a ≤ S256x10.size a
  h_S256x10 : 0 < S256x10.numel
  bcast_S_S16384x10 : S_.BroadcastsInDim S16384x10 (![] : Fin 0 → Fin S16384x10.rank)
  dot_S256x784_S784x2048_S256x2048_1_0_0_1_n_n_wf : DotDims.WF S256x784 S784x2048 S256x2048 [1] [0] [0] [1] [] []
  dot_S256x2048_S2048x2048_S256x2048_1_0_0_1_n_n_wf : DotDims.WF S256x2048 S2048x2048 S256x2048 [1] [0] [0] [1] [] []
  dot_S256x2048_S2048x10_S256x10_1_0_0_1_n_n_wf : DotDims.WF S256x2048 S2048x10 S256x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x784.size a ≤ S16384x784.size a
  hwx0_0 : ∀ i : grid0.Coords, EltTy.bits .f32 = 32 ∨ (Rect.block (s := S16384x784) S256x784.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S784x2048.size a ≤ S784x2048.size a
  hwx0_1 : ∀ i : grid0.Coords, EltTy.bits .bf16 = 32 ∨ (Rect.block (s := S784x2048) S784x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .f32 = 32 ∨ (Rect.block (s := S1x2048) S1x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2048x2048.size a ≤ S2048x2048.size a
  hwx0_5 : ∀ i : grid0.Coords, EltTy.bits .bf16 = 32 ∨ (Rect.block (s := S2048x2048) S2048x2048.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x2048.size a ≤ S1x2048.size a
  hwx0_6 : ∀ i : grid0.Coords, EltTy.bits .f32 = 32 ∨ (Rect.block (s := S1x2048) S1x2048.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x2048.size a ≤ S1x2048.size a
  hwx0_7 : ∀ i : grid0.Coords, EltTy.bits .f32 = 32 ∨ (Rect.block (s := S1x2048) S1x2048.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x2048.size a ≤ S1x2048.size a
  hwx0_8 : ∀ i : grid0.Coords, EltTy.bits .f32 = 32 ∨ (Rect.block (s := S1x2048) S1x2048.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S2048x10.size a ≤ S2048x10.size a
  hwx0_9 : ∀ i : grid0.Coords, EltTy.bits .bf16 = 32 ∨ (Rect.block (s := S2048x10) S2048x10.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x10.size a ≤ S1x10.size a
  hwx0_10 : ∀ i : grid0.Coords, EltTy.bits .f32 = 32 ∨ (Rect.block (s := S1x10) S1x10.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S256x10.size a ≤ S16384x10.size a
  hwx0_11 : ∀ i : grid0.Coords, EltTy.bits .f32 = 32 ∨ (Rect.block (s := S16384x10) S256x10.size (cc0_transform_11 i) (hinb0_11 i)).WholeWords (EltTy.packing .f32)

variable [Facts₀]

def dot_S256x784_S784x2048_S256x2048_1_0_0_1_n_n : DotDims S256x784 S784x2048 S256x2048 where
  lhsContracting := [1]
  rhsContracting := [0]
  lhsNonContracting := [0]
  rhsNonContracting := [1]
  lhsBatch := []
  rhsBatch := []
  wf := dot_S256x784_S784x2048_S256x2048_1_0_0_1_n_n_wf
def dot_S256x2048_S2048x2048_S256x2048_1_0_0_1_n_n : DotDims S256x2048 S2048x2048 S256x2048 where
  lhsContracting := [1]
  rhsContracting := [0]
  lhsNonContracting := [0]
  rhsNonContracting := [1]
  lhsBatch := []
  rhsBatch := []
  wf := dot_S256x2048_S2048x2048_S256x2048_1_0_0_1_n_n_wf
def dot_S256x2048_S2048x10_S256x10_1_0_0_1_n_n : DotDims S256x2048 S2048x10 S256x10 where
  lhsContracting := [1]
  rhsContracting := [0]
  lhsNonContracting := [0]
  rhsNonContracting := [1]
  lhsBatch := []
  rhsBatch := []
  wf := dot_S256x2048_S2048x10_S256x10_1_0_0_1_n_n_wf

abbrev win0_0 : Pipeline.Window sig grid0 :=
  Pipeline.Window.ofSpec (Memref.whole main_v0) S256x784.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S784x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v32) S1x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v33) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S2048x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v34) S1x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v35) S1x2048.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v36) S1x2048.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v18) S2048x10.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v37) S1x10.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v38) S256x10.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S16384x1x28x28 : Shape := ⟨4, ![16384, 1, 28, 28]⟩
abbrev S2048x784 : Shape := ⟨2, ![2048, 784]⟩
abbrev S2048 : Shape := ⟨1, ![2048]⟩
abbrev S2048x2048 : Shape := ⟨2, ![2048, 2048]⟩
abbrev S10x2048 : Shape := ⟨2, ![10, 2048]⟩
abbrev S10 : Shape := ⟨1, ![10]⟩
abbrev S_ : Shape := ⟨0, ![]⟩
abbrev S16384x784 : Shape := ⟨2, ![16384, 784]⟩
abbrev S16384x2048 : Shape := ⟨2, ![16384, 2048]⟩
abbrev S1x2048 : Shape := ⟨2, ![1, 2048]⟩
abbrev S16384x10 : Shape := ⟨2, ![16384, 10]⟩
abbrev S1x10 : Shape := ⟨2, ![1, 10]⟩

abbrev nBuf : Space → Nat
  | .hbm => 118
  | .vmem => 0
  | .smem => 0
  | _ => 0

abbrev bufTy : (tb : Table) → Fin (tcTables nBuf tb) → BufTy
  | .hbm, ⟨0, _⟩ => ⟨S16384x1x28x28, .f32⟩
  | .hbm, ⟨1, _⟩ => ⟨S2048x784, .f32⟩
  | .hbm, ⟨2, _⟩ => ⟨S2048, .f32⟩
  | .hbm, ⟨3, _⟩ => ⟨S2048, .f32⟩
  | .hbm, ⟨4, _⟩ => ⟨S2048, .f32⟩
  | .hbm, ⟨5, _⟩ => ⟨S2048, .f32⟩
  | .hbm, ⟨6, _⟩ => ⟨S2048, .f32⟩
  | .hbm, ⟨7, _⟩ => ⟨S2048x2048, .f32⟩
  | .hbm, ⟨8, _⟩ => ⟨S2048, .f32⟩
  | .hbm, ⟨9, _⟩ => ⟨S2048, .f32⟩
  | .hbm, ⟨10, _⟩ => ⟨S2048, .f32⟩
  | .hbm, ⟨11, _⟩ => ⟨S2048, .f32⟩
  | .hbm, ⟨12, _⟩ => ⟨S2048, .f32⟩
  | .hbm, ⟨13, _⟩ => ⟨S10x2048, .f32⟩
  | .hbm, ⟨14, _⟩ => ⟨S10, .f32⟩
  | .hbm, ⟨15, _⟩ => ⟨S_, .f32⟩
  | .hbm, ⟨16, _⟩ => ⟨S16384x784, .f32⟩
  | .hbm, ⟨17, _⟩ => ⟨S_, .f32⟩
  | .hbm, ⟨18, _⟩ => ⟨S2048x784, .f32⟩
  | .hbm, ⟨19, _⟩ => ⟨S2048x784, .i1⟩
  | .hbm, ⟨20, _⟩ => ⟨S_, .f32⟩
  | .hbm, ⟨21, _⟩ => ⟨S_, .f32⟩
  | .hbm, ⟨22, _⟩ => ⟨S2048x784, .f32⟩
  | .hbm, ⟨23, _⟩ => ⟨S2048x784, .f32⟩
  | .hbm, ⟨24, _⟩ => ⟨S2048x784, .f32⟩
  | .hbm, ⟨25, _⟩ => ⟨S2048x784, .f32⟩
  | .hbm, ⟨26, _⟩ => ⟨S16384x2048, .f32⟩
  | .hbm, ⟨27, _⟩ => ⟨S1x2048, .f32⟩
  | .hbm, ⟨28, _⟩ => ⟨S16384x2048, .f32⟩
  | .hbm, ⟨29, _⟩ => ⟨S16384x2048, .f32⟩
  | .hbm, ⟨30, _⟩ => ⟨S_, .f32⟩
  | .hbm, ⟨31, _⟩ => ⟨S2048, .f32⟩
  | .hbm, ⟨32, _⟩ => ⟨S2048, .f32⟩
  | .hbm, ⟨33, _⟩ => ⟨S2048, .f32⟩
  | .hbm, ⟨34, _⟩ => ⟨S2048, .f32⟩
  | .hbm, ⟨35, _⟩ => ⟨S1x2048, .f32⟩
  | .hbm, ⟨36, _⟩ => ⟨S16384x2048, .f32⟩
  | .hbm, ⟨37, _⟩ => ⟨S16384x2048, .f32⟩
  | .hbm, ⟨38, _⟩ => ⟨S2048, .f32⟩
  | .hbm, ⟨39, _⟩ => ⟨S2048, .f32⟩
  | .hbm, ⟨40, _⟩ => ⟨S1x2048, .f32⟩
  | .hbm, ⟨41, _⟩ => ⟨S16384x2048, .f32⟩
  | .hbm, ⟨42, _⟩ => ⟨S16384x2048, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S16384x2048, .f32⟩
  | .hbm, ⟨47, _⟩ => ⟨S16384x2048, .f32⟩
  | .hbm, ⟨48, _⟩ => ⟨S_, .f32⟩
  | .hbm, ⟨49, _⟩ => ⟨S16384x2048, .f32⟩
  | .hbm, ⟨50, _⟩ => ⟨S16384x2048, .f32⟩
  | .hbm, ⟨51, _⟩ => ⟨S_, .f32⟩
  | .hbm, ⟨52, _⟩ => ⟨S16384x2048, .f32⟩
  | .hbm, ⟨53, _⟩ => ⟨S16384x2048, .i1⟩
  | .hbm, ⟨54, _⟩ => ⟨S_, .f32⟩
  | .hbm, ⟨55, _⟩ => ⟨S_, .f32⟩
  | .hbm, ⟨56, _⟩ => ⟨S16384x2048, .f32⟩
  | .hbm, ⟨57, _⟩ => ⟨S16384x2048, .f32⟩
  | .hbm, ⟨58, _⟩ => ⟨S16384x2048, .f32⟩
  | .hbm, ⟨59, _⟩ => ⟨S16384x2048, .f32⟩
  | .hbm, ⟨60, _⟩ => ⟨S_, .f32⟩
  | .hbm, ⟨61, _⟩ => ⟨S2048x2048, .f32⟩
  | .hbm, ⟨62, _⟩ => ⟨S2048x2048, .i1⟩
  | .hbm, ⟨63, _⟩ => ⟨S_, .f32⟩
  | .hbm, ⟨64, _⟩ => ⟨S_, .f32⟩
  | .hbm, ⟨65, _⟩ => ⟨S2048x2048, .f32⟩
  | .hbm, ⟨66, _⟩ => ⟨S2048x2048, .f32⟩
  | .hbm, ⟨67, _⟩ => ⟨S2048x2048, .f32⟩
  | .hbm, ⟨68, _⟩ => ⟨S2048x2048, .f32⟩
  | .hbm, ⟨69, _⟩ => ⟨S16384x2048, .f32⟩
  | .hbm, ⟨70, _⟩ => ⟨S1x2048, .f32⟩
  | .hbm, ⟨71, _⟩ => ⟨S16384x2048, .f32⟩
  | .hbm, ⟨72, _⟩ => ⟨S16384x2048, .f32⟩
  | .hbm, ⟨73, _⟩ => ⟨S_, .f32⟩
  | .hbm, ⟨74, _⟩ => ⟨S2048, .f32⟩
  | .hbm, ⟨75, _⟩ => ⟨S2048, .f32⟩
  | .hbm, ⟨76, _⟩ => ⟨S2048, .f32⟩
  | .hbm, ⟨77, _⟩ => ⟨S2048, .f32⟩
  | .hbm, ⟨78, _⟩ => ⟨S1x2048, .f32⟩
  | .hbm, ⟨79, _⟩ => ⟨S16384x2048, .f32⟩
  | .hbm, ⟨80, _⟩ => ⟨S16384x2048, .f32⟩
  | .hbm, ⟨81, _⟩ => ⟨S2048, .f32⟩
  | .hbm, ⟨82, _⟩ => ⟨S2048, .f32⟩
  | .hbm, ⟨83, _⟩ => ⟨S1x2048, .f32⟩
  | .hbm, ⟨84, _⟩ => ⟨S16384x2048, .f32⟩
  | .hbm, ⟨85, _⟩ => ⟨S16384x2048, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S16384x2048, .f32⟩
  | .hbm, ⟨90, _⟩ => ⟨S16384x2048, .f32⟩
  | .hbm, ⟨91, _⟩ => ⟨S_, .f32⟩
  | .hbm, ⟨92, _⟩ => ⟨S16384x2048, .f32⟩
  | .hbm, ⟨93, _⟩ => ⟨S16384x2048, .f32⟩
  | .hbm, ⟨94, _⟩ => ⟨S_, .f32⟩
  | .hbm, ⟨95, _⟩ => ⟨S16384x2048, .f32⟩
  | .hbm, ⟨96, _⟩ => ⟨S16384x2048, .i1⟩
  | .hbm, ⟨97, _⟩ => ⟨S_, .f32⟩
  | .hbm, ⟨98, _⟩ => ⟨S_, .f32⟩
  | .hbm, ⟨99, _⟩ => ⟨S16384x2048, .f32⟩
  | .hbm, ⟨100, _⟩ => ⟨S16384x2048, .f32⟩
  | .hbm, ⟨101, _⟩ => ⟨S16384x2048, .f32⟩
  | .hbm, ⟨102, _⟩ => ⟨S16384x2048, .f32⟩
  | .hbm, ⟨103, _⟩ => ⟨S_, .f32⟩
  | .hbm, ⟨104, _⟩ => ⟨S10x2048, .f32⟩
  | .hbm, ⟨105, _⟩ => ⟨S10x2048, .i1⟩
  | .hbm, ⟨106, _⟩ => ⟨S_, .f32⟩
  | .hbm, ⟨107, _⟩ => ⟨S_, .f32⟩
  | .hbm, ⟨108, _⟩ => ⟨S10x2048, .f32⟩
  | .hbm, ⟨109, _⟩ => ⟨S10x2048, .f32⟩
  | .hbm, ⟨110, _⟩ => ⟨S10x2048, .f32⟩
  | .hbm, ⟨111, _⟩ => ⟨S10x2048, .f32⟩
  | .hbm, ⟨112, _⟩ => ⟨S16384x10, .f32⟩
  | .hbm, ⟨113, _⟩ => ⟨S1x10, .f32⟩
  | .hbm, ⟨114, _⟩ => ⟨S16384x10, .f32⟩
  | .hbm, ⟨115, _⟩ => ⟨S16384x10, .f32⟩
  | .hbm, ⟨116, _⟩ => ⟨S16384x10, .f32⟩
  | .hbm, ⟨117, _⟩ => ⟨S16384x10, .f32⟩
  | _, _ => ⟨S16384x1x28x28, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_cst : Ref sig .tc := ⟨.hbm, 17, rfl⟩
abbrev main_v1 : Ref sig .tc := ⟨.hbm, 18, rfl⟩
abbrev main_v2 : Ref sig .tc := ⟨.hbm, 19, rfl⟩
abbrev main_cst_0 : Ref sig .tc := ⟨.hbm, 20, rfl⟩
abbrev main_cst_1 : Ref sig .tc := ⟨.hbm, 21, rfl⟩
abbrev main_call0_v0 : Ref sig .tc := ⟨.hbm, 22, rfl⟩
abbrev main_call0_v1 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_cst_2 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_cst_3 : Ref sig .tc := ⟨.hbm, 43, rfl⟩
abbrev main_cst_4 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_v21 : Ref sig .tc := ⟨.hbm, 50, rfl⟩
abbrev main_cst_5 : Ref sig .tc := ⟨.hbm, 51, rfl⟩
abbrev main_v22 : Ref sig .tc := ⟨.hbm, 52, rfl⟩
abbrev main_v23 : Ref sig .tc := ⟨.hbm, 53, rfl⟩
abbrev main_cst_6 : Ref sig .tc := ⟨.hbm, 54, rfl⟩
abbrev main_cst_7 : Ref sig .tc := ⟨.hbm, 55, rfl⟩
abbrev main_call2_v0 : Ref sig .tc := ⟨.hbm, 56, rfl⟩
abbrev main_call2_v1 : Ref sig .tc := ⟨.hbm, 57, rfl⟩
abbrev main_v24 : Ref sig .tc := ⟨.hbm, 58, rfl⟩
abbrev main_v25 : Ref sig .tc := ⟨.hbm, 59, rfl⟩
abbrev main_cst_8 : Ref sig .tc := ⟨.hbm, 60, rfl⟩
abbrev main_v26 : Ref sig .tc := ⟨.hbm, 61, rfl⟩
abbrev main_v27 : Ref sig .tc := ⟨.hbm, 62, rfl⟩
abbrev main_cst_9 : Ref sig .tc := ⟨.hbm, 63, rfl⟩
abbrev main_cst_10 : Ref sig .tc := ⟨.hbm, 64, rfl⟩
abbrev main_call3_v0 : Ref sig .tc := ⟨.hbm, 65, rfl⟩
abbrev main_call3_v1 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_cst_11 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_cst_12 : Ref sig .tc := ⟨.hbm, 86, rfl⟩
abbrev main_cst_13 : Ref sig .tc := ⟨.hbm, 87, rfl⟩
abbrev main_call4_v0 : Ref sig .tc := ⟨.hbm, 88, rfl⟩
abbrev main_call4_v1 : Ref sig .tc := ⟨.hbm, 89, rfl⟩
abbrev main_call4_v2 : Ref sig .tc := ⟨.hbm, 90, rfl⟩
abbrev main_call4_v3 : Ref sig .tc := ⟨.hbm, 91, rfl⟩
abbrev main_call4_v4 : Ref sig .tc := ⟨.hbm, 92, rfl⟩
abbrev main_v46 : Ref sig .tc := ⟨.hbm, 93, rfl⟩
abbrev main_cst_14 : Ref sig .tc := ⟨.hbm, 94, rfl⟩
abbrev main_v47 : Ref sig .tc := ⟨.hbm, 95, rfl⟩
abbrev main_v48 : Ref sig .tc := ⟨.hbm, 96, rfl⟩
abbrev main_cst_15 : Ref sig .tc := ⟨.hbm, 97, rfl⟩
abbrev main_cst_16 : Ref sig .tc := ⟨.hbm, 98, rfl⟩
abbrev main_call5_v0 : Ref sig .tc := ⟨.hbm, 99, rfl⟩
abbrev main_call5_v1 : Ref sig .tc := ⟨.hbm, 100, rfl⟩
abbrev main_v49 : Ref sig .tc := ⟨.hbm, 101, rfl⟩
abbrev main_v50 : Ref sig .tc := ⟨.hbm, 102, rfl⟩
abbrev main_cst_17 : Ref sig .tc := ⟨.hbm, 103, rfl⟩
abbrev main_v51 : Ref sig .tc := ⟨.hbm, 104, rfl⟩
abbrev main_v52 : Ref sig .tc := ⟨.hbm, 105, rfl⟩
abbrev main_cst_18 : Ref sig .tc := ⟨.hbm, 106, rfl⟩
abbrev main_cst_19 : Ref sig .tc := ⟨.hbm, 107, rfl⟩
abbrev main_call6_v0 : Ref sig .tc := ⟨.hbm, 108, rfl⟩
abbrev main_call6_v1 : Ref sig .tc := ⟨.hbm, 109, rfl⟩
abbrev main_v53 : Ref sig .tc := ⟨.hbm, 110, rfl⟩
abbrev main_v54 : Ref sig .tc := ⟨.hbm, 111, rfl⟩
abbrev main_v55 : Ref sig .tc := ⟨.hbm, 112, rfl⟩
abbrev main_v56 : Ref sig .tc := ⟨.hbm, 113, rfl⟩
abbrev main_v57 : Ref sig .tc := ⟨.hbm, 114, rfl⟩
abbrev main_v58 : Ref sig .tc := ⟨.hbm, 115, rfl⟩
abbrev main_v59 : Ref sig .tc := ⟨.hbm, 116, rfl⟩
abbrev main_v60 : Ref sig .tc := ⟨.hbm, 117, rfl⟩

abbrev nD : Nat := 1
abbrev τ : Topo := Topo.v7x

variable {F : FTy → Type} [FloatOps F]

class Facts₀ : Prop where
  shapeCasts_S16384x1x28x28_S16384x784 : S16384x1x28x28.ShapeCasts S16384x784
  bcast_S_S2048x784 : S_.BroadcastsInDim S2048x784 (![] : Fin 0 → Fin S2048x784.rank)
  bcast_S2048_S1x2048_1 : S2048.BroadcastsInDim S1x2048 (![1] : Fin 1 → Fin S1x2048.rank)
  bcast_S1x2048_S16384x2048_0_1 : S1x2048.BroadcastsInDim S16384x2048 (![0, 1] : Fin 2 → Fin S16384x2048.rank)
  bcast_S_S2048 : S_.BroadcastsInDim S2048 (![] : Fin 0 → Fin S2048.rank)
  bcast_S_S16384x2048 : S_.BroadcastsInDim S16384x2048 (![] : Fin 0 → Fin S16384x2048.rank)
  bcast_S_S2048x2048 : S_.BroadcastsInDim S2048x2048 (![] : Fin 0 → Fin S2048x2048.rank)
  bcast_S_S10x2048 : S_.BroadcastsInDim S10x2048 (![] : Fin 0 → Fin S10x2048.rank)
  bcast_S10_S1x10_1 : S10.BroadcastsInDim S1x10 (![1] : Fin 1 → Fin S1x10.rank)
  bcast_S1x10_S16384x10_0_1 : S1x10.BroadcastsInDim S16384x10 (![0, 1] : Fin 2 → Fin S16384x10.rank)
  bcast_S_S16384x10 : S_.BroadcastsInDim S16384x10 (![] : Fin 0 → Fin S16384x10.rank)
  dot_S16384x784_S2048x784_S16384x2048_1_1_0_0_n_n_wf : DotDims.WF S16384x784 S2048x784 S16384x2048 [1] [1] [0] [0] [] []
  dot_S16384x2048_S2048x2048_S16384x2048_1_1_0_0_n_n_wf : DotDims.WF S16384x2048 S2048x2048 S16384x2048 [1] [1] [0] [0] [] []
  dot_S16384x2048_S10x2048_S16384x10_1_1_0_0_n_n_wf : DotDims.WF S16384x2048 S10x2048 S16384x10 [1] [1] [0] [0] [] []

variable [Facts₀]

def dot_S16384x784_S2048x784_S16384x2048_1_1_0_0_n_n : DotDims S16384x784 S2048x784 S16384x2048 where
  lhsContracting := [1]
  rhsContracting := [1]
  lhsNonContracting := [0]
  rhsNonContracting := [0]
  lhsBatch := []
  rhsBatch := []
  wf := dot_S16384x784_S2048x784_S16384x2048_1_1_0_0_n_n_wf
def dot_S16384x2048_S2048x2048_S16384x2048_1_1_0_0_n_n : DotDims S16384x2048 S2048x2048 S16384x2048 where
  lhsContracting := [1]
  rhsContracting := [1]
  lhsNonContracting := [0]
  rhsNonContracting := [0]
  lhsBatch := []
  rhsBatch := []
  wf := dot_S16384x2048_S2048x2048_S16384x2048_1_1_0_0_n_n_wf
def dot_S16384x2048_S10x2048_S16384x10_1_1_0_0_n_n : DotDims S16384x2048 S10x2048 S16384x10 where
  lhsContracting := [1]
  rhsContracting := [1]
  lhsNonContracting := [0]
  rhsNonContracting := [0]
  lhsBatch := []
  rhsBatch := []
  wf := dot_S16384x2048_S10x2048_S16384x10_1_1_0_0_n_n_wf

class Facts : Prop extends Facts₀ where

variable [Facts]
-- ==== Proof.Spec.lean ====
/-
  A three-layer binarized perceptron, read on ONE input row over the extended reals.

  A dense layer sends a row `h` to `(∑ k, h k · W o k) + c o` at each output unit `o`. A hidden layer follows it by
  the unit's scale and shift (a folded batch normalization, `· s o + t o`), the clamp to [-1, 1] and the sign that
  sends an entry at least zero to +1 and every other to -1. The network is two hidden layers and a last dense one.
  The weights enter through their signs, and a hidden unit's scale and shift are
  `s = γ · rsqrt(var + ε)` and `t = β − μ · s`.
  Every entry of the result depends on ONE row of the input, which is why a batch may be cut into row blocks.
-/
import Idealize.ShloMosaic.PureOps.Ideal
import Idealize.ShloMosaic.Lib.ValueIdx

noncomputable section

open scoped BigOperators

namespace Cert.Bnn

open Idealize.ShloMosaic Idealize.ShloMosaic.ValueIdx

/-- The sign with the tie at zero sent up: +1 where `0 ≤ z`, -1 elsewhere. -/
def sgn (z : EReal) : EReal :=
  Scalar.select (Ideal.cmp .oge z (Ideal.ofBits .f32 0x00000000#32)) (Ideal.ofBits .f32 0x3F800000#32) (Ideal.ofBits .f32 0xBF800000#32)

/-- The clamp to [-1, 1]: first raised to -1, then lowered to +1. -/
def clamp1 (z : EReal) : EReal :=
  min (Ideal.ofBits .f32 0x3F800000#32) (max (Ideal.ofBits .f32 0xBF800000#32) z)

/-- A hidden unit's activation: the sign of the clamped entry. -/
def act (z : EReal) : EReal := sgn (clamp1 z)

/-- A dense layer at output unit `o`: the row against the unit's weights, plus the unit's bias. -/
def dense {K N : Nat} (h : Fin K → EReal) (W : Fin N → Fin K → EReal) (c : Fin N → EReal) (o : Fin N) : EReal :=
  (∑ k : Fin K, h k * W o k) + c o

/-- A hidden layer at unit `o`: dense, scaled and shifted, activated. -/
def hidden {K N : Nat} (h : Fin K → EReal) (W : Fin N → Fin K → EReal) (c s t : Fin N → EReal) (o : Fin N) : EReal :=
  act (dense h W c o * s o + t o)

/-- The network's parameters as the layers read them: weights by (output unit, input unit), one bias, scale and
    shift per hidden unit, one bias per output unit. -/
structure Params where
  W1 : Fin 2048 → Fin 784 → EReal
  c1 : Fin 2048 → EReal
  s1 : Fin 2048 → EReal
  t1 : Fin 2048 → EReal
  W2 : Fin 2048 → Fin 2048 → EReal
  c2 : Fin 2048 → EReal
  s2 : Fin 2048 → EReal
  t2 : Fin 2048 → EReal
  W3 : Fin 10 → Fin 2048 → EReal
  c3 : Fin 10 → EReal

/-- The network on one row of 784 entries: ten outputs. -/
def rowOut (P : Params) (x : Fin 784 → EReal) : Fin 10 → EReal :=
  dense (hidden (hidden x P.W1 P.c1 P.s1 P.t1) P.W2 P.c2 P.s2 P.t2) P.W3 P.c3

/-- A batch normalization's folded scale: `γ · rsqrt(var + ε)`, `ε` the single-precision word nearest 1e-5. -/
def bnScale (g v : EReal) : EReal :=
  g * Ideal.hostUnary .rsqrt (v + Ideal.ofBits .f32 0x3727C5AC#32)

/-- Its folded shift: `β − μ · scale`. -/
def bnShift (be mu g v : EReal) : EReal := be - mu * bnScale g v

/-- The parameters from the argument arrays: signs of the three weight matrices, the biases as given, each hidden
    layer's scale and shift folded from its `γ, β, μ, var`. -/
def Params.ofArrays
    (w1 : (⟨2, ![2048, 784]⟩ : Shape).Idx → EReal) (b1 g1 be1 m1 v1 : (⟨1, ![2048]⟩ : Shape).Idx → EReal)
    (w2 : (⟨2, ![2048, 2048]⟩ : Shape).Idx → EReal) (b2 g2 be2 m2 v2 : (⟨1, ![2048]⟩ : Shape).Idx → EReal)
    (w3 : (⟨2, ![10, 2048]⟩ : Shape).Idx → EReal) (b3 : (⟨1, ![10]⟩ : Shape).Idx → EReal) : Params where
  W1 o k := sgn (w1 (ix2 o k))
  c1 o := b1 (ix1 o)
  s1 o := bnScale (g1 (ix1 o)) (v1 (ix1 o))
  t1 o := bnShift (be1 (ix1 o)) (m1 (ix1 o)) (g1 (ix1 o)) (v1 (ix1 o))
  W2 o k := sgn (w2 (ix2 o k))
  c2 o := b2 (ix1 o)
  s2 o := bnScale (g2 (ix1 o)) (v2 (ix1 o))
  t2 o := bnShift (be2 (ix1 o)) (m2 (ix1 o)) (g2 (ix1 o)) (v2 (ix1 o))
  W3 o k := sgn (w3 (ix2 o k))
  c3 o := b3 (ix1 o)

/-- The logits of a batch of rows, before the final scalar: row `b` of the result is the network on row `b`. -/
def logits {B : Nat} (P : Params) (X : (⟨2, ![B, 784]⟩ : Shape).Idx → EReal) : (⟨2, ![B, 10]⟩ : Shape).Idx → EReal :=
  fun i => rowOut P (fun k => X (ix2 (i 0) k)) (i 1)

/-- The whole result: the logits times the scalar. -/
def scaled {B : Nat} (P : Params) (X : (⟨2, ![B, 784]⟩ : Shape).Idx → EReal) (sc : EReal) :
    (⟨2, ![B, 10]⟩ : Shape).Idx → EReal :=
  fun i => logits P X i * sc

end Cert.Bnn

end
-- ==== Proof.LibRowDims.lean ====
/-
  Dimension numbers over symbolic extents, each read in coordinates:
  * a plain contraction `[M, K] × [K, N]` is the sum over the contracted coordinate;
  * a row gather — `x[idx]` of a table `[N, C]` at start indices `[R, 1]` — reads row `idx r` of the table,
    the start index taken signed and clamped into `[0, N − 1]`;
  * a row scatter-add into a table `[N, C]` adds update row `r` at row `idx r` of the table when that row exists
    (the start index taken signed, not clamped) and nowhere otherwise, so the entry `(a, b)` of the result is the
    table's entry plus the sum of the updates' entries `(r, b)` over the rows `r` with `idx r = a`.
-/
import Idealize.ShloMosaic.PureOps.Ideal
import Idealize.ShloMosaic.PureOps.Ideal.Laws
import Idealize.ShloMosaic.Lib.ValueIdx

noncomputable section

open scoped BigOperators

namespace Idealize.ShloMosaic.RowDims

open Idealize.ShloMosaic Idealize.ShloMosaic.ValueIdx

/-! ## A plain contraction -/

/-- The left operand's row coordinate is the output's row, whatever the contraction position. -/
theorem plain_lhsIdx_row {M K N : Nat} (p : Fin M) (q : Fin N) (k : (DotDims.plain M K N).contr.Idx) :
    ((DotDims.plain M K N).lhsIdx (ix2 p q) k 0).val = p.val := rfl

/-- The right operand's column coordinate is the output's column, whatever the contraction position. -/
theorem plain_rhsIdx_col {M K N : Nat} (p : Fin M) (q : Fin N) (k : (DotDims.plain M K N).contr.Idx) :
    ((DotDims.plain M K N).rhsIdx (ix2 p q) k 1).val = q.val := rfl

/-- The contraction sum of `DotDims.plain M K N` at the output entry `(p, q)` runs over the `K` products
    `lhs (p, k) · rhs (k, q)`. -/
theorem plain_sum {M K N : Nat} (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  -- re-index the sum by the one contracted coordinate
  rw [← Equiv.sum_comp (contrEquiv1 (DotDims.plain M K N) K rfl rfl).symm]
  refine Finset.sum_congr rfl fun k _ => ?_
  -- the left operand is read at (p, k): its row from the output, its column the contracted coordinate
  have hl : (DotDims.plain M K N).lhsIdx (ix2 p q) ((contrEquiv1 (DotDims.plain M K N) K rfl rfl).symm k) = ix2 p k := by
    funext a
    refine Fin.ext ?_
    match a with
    | ⟨0, _⟩ => exact plain_lhsIdx_row p q _
    | ⟨1, _⟩ =>
      exact ((DotDims.plain M K N).lhsIdx_val_of_single (cl := 1) rfl _ _).trans
        (contrEquiv1_symm_val (DotDims.plain M K N) K rfl rfl k)
  -- the right operand is read at (k, q): its row the contracted coordinate, its column from the output
  have hr : (DotDims.plain M K N).rhsIdx (ix2 p q) ((contrEquiv1 (DotDims.plain M K N) K rfl rfl).symm k) = ix2 k q := by
    funext a
    refine Fin.ext ?_
    match a with
    | ⟨0, _⟩ =>
      exact ((DotDims.plain M K N).rhsIdx_val_of_single (cr := 0) rfl _ _).trans
        (contrEquiv1_symm_val (DotDims.plain M K N) K rfl rfl k)
    | ⟨1, _⟩ => exact plain_rhsIdx_col p q _
  rw [hl, hr]

/-- A matrix-unit product into the zero accumulator, at the ideal values, entry by entry. -/
theorem matmul_plain_zero_apply {M K N : Nat} {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact plain_sum lhs rhs p q

/-- The host's product of the same operands, at the ideal values, entry by entry: the same sum. -/
theorem dotGeneral_plain_apply {M K N : Nat} {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact plain_sum lhs rhs p q

/-! ## A row gather -/

/-- The dimension numbers of `x[idx]` for a table `[N, C]`, start indices `[R, 1]` and result `[R, C]`. -/
abbrev rowGather (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The table row a start index selects: the index read signed and clamped into `[0, N − 1]`. -/
def clampRow (N : Nat) (hN : 0 < N) {w : Nat} (v : BitVec w) : Fin N := ⟨min v.toInt.toNat (N - 1), by omega⟩

/-- The result entry `(r, c)` reads its one start-index component at `(r, 0)` of the start indices. -/
theorem rowGather_siIdx {N C R : Nat}
    (wf : GatherDims.WF ⟨2, ![N, C]⟩ ⟨2, ![R, 1]⟩ ⟨2, ![R, C]⟩ [1] [0] [] [0] [] 1 ![1, C]) (r : Fin R) (c : Fin C) :
    (rowGather N C R wf).siIdx (ix2 r c) ⟨List.idxOf (0 : Fin 2) (rowGather N C R wf).startIndexMap,
      List.idxOf_lt_length_iff.2 (List.mem_singleton.mpr rfl)⟩ = ix2 r 0 := by
  funext b; refine Fin.ext ?_
  match b with
  | ⟨0, _⟩ => rfl
  | ⟨1, _⟩ => rfl

/-- On the table's row axis (collapsed, named by the start index map) the operand index is the clamped start alone:
    no batching coordinate, no offset coordinate, and the slice size `1` leaves the clamp's upper bound `N − 1`. -/
theorem rowGather_operandIdx_row {N C R w : Nat} (hN : 0 < N)
    (wf : GatherDims.WF ⟨2, ![N, C]⟩ ⟨2, ![R, 1]⟩ ⟨2, ![R, C]⟩ [1] [0] [] [0] [] 1 ![1, C])
    (idx : IVec ⟨2, ![R, 1]⟩ w) (r : Fin R) (c : Fin C) :
    ((rowGather N C R wf).operandIdx (ix2 r c) idx 0).val = (clampRow N hN (idx (ix2 r 0))).val := by
  show (rowGather N C R wf).start (ix2 r c) idx 0 + (rowGather N C R wf).batchCoord (ix2 r c) 0
    + (rowGather N C R wf).offCoord (ix2 r c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGather N C R wf).startIndexMap from List.mem_singleton.mpr rfl)]
  rw [rowGather_siIdx wf r c]
  rfl

/-- On the table's column axis (the offset axis, not named by the start index map) the operand index is the offset
    coordinate alone: the result's column. -/
theorem rowGather_operandIdx_col {N C R w : Nat}
    (wf : GatherDims.WF ⟨2, ![N, C]⟩ ⟨2, ![R, 1]⟩ ⟨2, ![R, C]⟩ [1] [0] [] [0] [] 1 ![1, C])
    (idx : IVec ⟨2, ![R, 1]⟩ w) (r : Fin R) (c : Fin C) :
    ((rowGather N C R wf).operandIdx (ix2 r c) idx 1).val = c.val := by
  show (rowGather N C R wf).start (ix2 r c) idx 1 + (rowGather N C R wf).batchCoord (ix2 r c) 1
    + (rowGather N C R wf).offCoord (ix2 r c) 1 = _
  rw [GatherDims.batchCoord_eq_zero _ _ _ List.not_mem_nil]
  unfold GatherDims.start
  rw [dif_neg (show ¬ (1 : Fin 2) ∈ (rowGather N C R wf).startIndexMap from
    fun h => absurd (congrArg Fin.val (List.mem_singleton.mp h)) Nat.one_ne_zero)]
  simp only [Nat.add_zero, Nat.zero_add]
  rfl

/-- The gather read at `(r, c)`: the table at row `clampRow (idx (r, 0))`, column `c`. -/
theorem rowGather_apply {α : Type} {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowGather N C R wf) x idx (ix2 r c) = x (ix2 (clampRow N hN (idx (ix2 r 0))) c) := by
  unfold Host.gather
  congr 1
  funext a
  refine Fin.ext ?_
  match a with
  | ⟨0, _⟩ => exact rowGather_operandIdx_row hN wf idx r c
  | ⟨1, _⟩ => exact rowGather_operandIdx_col wf idx r c

/-! ## A row scatter-add -/

/-- The dimension numbers of `x.at[idx].add(u)` for a table `[N, C]`, scatter indices `[R, 1]` and updates `[R, C]`. -/
abbrev rowScatter (N C R : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- The update entry `(r, c)` reads its one start-index component at `(r, 0)` of the scatter indices. -/
theorem rowScatter_siIdx {N C R : Nat}
    (wf : ScatterDims.WF ⟨2, ![N, C]⟩ ⟨2, ![R, 1]⟩ ⟨2, ![R, C]⟩ [1] [0] [0] 1) (r : Fin R) (c : Fin C) :
    (rowScatter N C R wf).siIdx (ix2 r c) ⟨List.idxOf (0 : Fin 2) (rowScatter N C R wf).scatterDimsToOperandDims,
      List.idxOf_lt_length_iff.2 (List.mem_singleton.mpr rfl)⟩ = ix2 r 0 := by
  funext b; refine Fin.ext ?_
  match b with
  | ⟨0, _⟩ => rfl
  | ⟨1, _⟩ => rfl

/-- On the table's row axis the window starts at the scatter index of the update's row, read signed. -/
theorem rowScatter_start_row {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) :
    (rowScatter N C R wf).start (ix2 r c) idx 0 = (idx (ix2 r 0)).toInt := by
  unfold ScatterDims.start
  rw [dif_pos (show (0 : Fin 2) ∈ (rowScatter N C R wf).scatterDimsToOperandDims from List.mem_singleton.mpr rfl),
    rowScatter_siIdx wf r c]

/-- On the table's column axis, which the scatter index does not name, the window starts at `0`. -/
theorem rowScatter_start_col {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) :
    (rowScatter N C R wf).start (ix2 r c) idx 1 = 0 := by
  unfold ScatterDims.start
  rw [dif_neg (show ¬ (1 : Fin 2) ∈ (rowScatter N C R wf).scatterDimsToOperandDims from
    fun h => absurd (congrArg Fin.val (List.mem_singleton.mp h)) Nat.one_ne_zero)]

/-- The row axis is an inserted axis: its window coordinate is `0`. -/
theorem rowScatter_window_row {N C R : Nat}
    (wf : ScatterDims.WF ⟨2, ![N, C]⟩ ⟨2, ![R, 1]⟩ ⟨2, ![R, C]⟩ [1] [0] [0] 1) (r : Fin R) (c : Fin C) :
    (rowScatter N C R wf).window (ix2 r c) 0 = 0 := rfl

/-- The column axis carries the update's window axis: its window coordinate is the update's column. -/
theorem rowScatter_window_col {N C R : Nat}
    (wf : ScatterDims.WF ⟨2, ![N, C]⟩ ⟨2, ![R, 1]⟩ ⟨2, ![R, C]⟩ [1] [0] [0] 1) (r : Fin R) (c : Fin C) :
    (rowScatter N C R wf).window (ix2 r c) 1 = c.val := rfl

/-- Update entry `(r, c)` lands on table entry `(a, b)` exactly when its start index, read signed, is `a` and `c = b`. -/
theorem rowScatter_resultIdx?_eq_some_iff {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) (a : Fin N) (b : Fin C) :
    (rowScatter N C R wf).resultIdx? (ix2 r c) idx = some (ix2 a b) ↔ (idx (ix2 r 0)).toInt = (a.val : Int) ∧ c = b := by
  have hs0 := rowScatter_start_row wf idx r c
  have hs1 := rowScatter_start_col wf idx r c
  have hw0 := rowScatter_window_row wf r c
  have hw1 := rowScatter_window_col wf r c
  unfold ScatterDims.resultIdx?
  constructor
  · -- landed at (a, b): the window is inside the table, and its two coordinates are a and b
    intro h
    split at h
    · rename_i hin
      have hf := Option.some.inj h
      have e0 := congrArg (fun f => (f 0).val) hf
      have e1 := congrArg (fun f => (f 1).val) hf
      simp only [hs0, hs1, hw0, hw1] at e0 e1
      have h0 := hin 0
      rw [hs0, hw0] at h0
      have ea : ((ix2 a b : (⟨2, ![N, C]⟩ : Shape).Idx) 0).val = a.val := rfl
      have eb : ((ix2 a b : (⟨2, ![N, C]⟩ : Shape).Idx) 1).val = b.val := rfl
      rw [ea] at e0
      rw [eb] at e1
      refine ⟨by omega, Fin.ext (by omega)⟩
    · exact absurd h (by simp)
  · -- the start index is a row of the table and the column is kept: the window is inside, at (a, c)
    rintro ⟨hv, rfl⟩
    have hin : ∀ a' : Fin 2, 0 ≤ (rowScatter N C R wf).start (ix2 r c) idx a' + (rowScatter N C R wf).window (ix2 r c) a'
        ∧ (rowScatter N C R wf).start (ix2 r c) idx a' + (rowScatter N C R wf).window (ix2 r c) a' < (⟨2, ![N, C]⟩ : Shape).size a' := by
      intro a'
      match a' with
      | ⟨0, _⟩ =>
        show 0 ≤ (rowScatter N C R wf).start (ix2 r c) idx 0 + (rowScatter N C R wf).window (ix2 r c) 0
          ∧ (rowScatter N C R wf).start (ix2 r c) idx 0 + (rowScatter N C R wf).window (ix2 r c) 0 < (N : Int)
        rw [hs0, hw0, hv]; have := a.isLt; constructor <;> omega
      | ⟨1, _⟩ =>
        show 0 ≤ (rowScatter N C R wf).start (ix2 r c) idx 1 + (rowScatter N C R wf).window (ix2 r c) 1
          ∧ (rowScatter N C R wf).start (ix2 r c) idx 1 + (rowScatter N C R wf).window (ix2 r c) 1 < (C : Int)
        rw [hs1, hw1]; have := c.isLt; constructor <;> omega
    rw [dif_pos hin]
    congr 1
    funext a'
    refine Fin.ext ?_
    match a' with
    | ⟨0, _⟩ =>
      show ((rowScatter N C R wf).start (ix2 r c) idx 0 + (rowScatter N C R wf).window (ix2 r c) 0).toNat = a.val
      rw [hs0, hw0, hv]; omega
    | ⟨1, _⟩ =>
      show ((rowScatter N C R wf).start (ix2 r c) idx 1 + (rowScatter N C R wf).window (ix2 r c) 1).toNat = c.val
      rw [hs1, hw1]; omega

/-- The accumulated table at `(a, b)`: the table's entry plus the updates' entries `(r, b)` over the rows whose start
    index is `a`. -/
theorem rowScatterAdd_apply {N C R w : Nat}
    (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w) (upd : (⟨2, ![R, C]⟩ : Shape).Idx → EReal)
    (a : Fin N) (b : Fin C) :
    Ideal.hostScatterAdd (rowScatter N C R wf) x idx upd (ix2 a b)
      = x (ix2 a b) + ∑ r : Fin R, if (idx (ix2 r 0)).toInt = (a.val : Int) then upd (ix2 r b) else 0 := by
  unfold Ideal.hostScatterAdd
  congr 1
  -- the sum over the update entries that land on (a, b), as a double sum over their rows and columns
  rw [Finset.sum_filter, sum_idx2]
  refine Finset.sum_congr rfl fun r _ => ?_
  simp only [rowScatter_resultIdx?_eq_some_iff]
  -- row r contributes its entry in column b when its start index is a, and nothing otherwise
  by_cases hv : (idx (ix2 r 0)).toInt = (a.val : Int)
  · simp only [hv, true_and, if_true]
    rw [Finset.sum_ite_eq' Finset.univ b (fun c => upd (ix2 r c)), if_pos (Finset.mem_univ b)]
  · simp only [hv, false_and, if_false]
    exact Finset.sum_const_zero

end Idealize.ShloMosaic.RowDims

end
-- ==== Proof.KernelBody.lean ====
/-
  What the kernel body stores, entry by entry, at the ideal values: entry (p, q) of the 256 × 10 block it writes is
  the network (Spec) on row p of its 256 × 784 input block, with the parameters read off the other blocks it loads —
  the weight blocks already laid out by (input unit, output unit), each per-unit vector as a 1 × N row.
  Each product of the body accumulates into a zero block, so at an entry it is the plain sum over the contracted
  coordinate; the per-unit rows are broadcast down the 256 rows; the clamp, the comparison with zero and the selection
  of ±1 act entry by entry; a change of float format is the identity.
-/
import proofs.«122004_j54013508715380_1_alg».proof.Proof.Gen.KernelIdeal.Skeleton
import proofs.«122004_j54013508715380_1_alg».proof.Proof.Spec
import proofs.«122004_j54013508715380_1_alg».proof.Proof.LibRowDims
import Idealize.ShloMosaic.Lib.Pipeline.Value
import Idealize.ShloMosaic.Lib.ValueLayout
import Idealize.ShloMosaic.PureOps.Ideal.Laws

noncomputable section

open scoped BigOperators

namespace Cert.KernelIdeal.Body

open Cert.KernelIdeal Cert.KernelIdeal.Gen Idealize.ShloMosaic Idealize.ShloMosaic.TcCoe Idealize.ShloMosaic.ValueIdx Cert.Bnn

/-- A product into the zero block plus a bias row broadcast down the 256 rows, at (p, o): the dense layer on row p. -/
theorem denseBlock_apply {K N : Nat} {φ₁ φ₂ : FTy} (D : DotDims ⟨2, ![256, K]⟩ ⟨2, ![K, N]⟩ ⟨2, ![256, N]⟩)
    (hD : D = DotDims.plain 256 K N) (hin : FVec Ideal ⟨2, ![256, K]⟩ φ₁) (w : FVec Ideal ⟨2, ![K, N]⟩ φ₂)
    (c : (⟨2, ![1, N]⟩ : Shape).Idx → EReal) (hb : (⟨2, ![1, N]⟩ : Shape).Broadcasts ⟨2, ![256, N]⟩)
    (p : Fin 256) (o : Fin N) :
    addf (matmul D none hin w (constant ⟨2, ![256, N]⟩ .f32 0x00000000#32)) (broadcastTo ⟨2, ![256, N]⟩ c hb) (ix2 p o)
      = dense (fun k => hin (ix2 p k)) (fun o k => w (ix2 k o)) (fun o => c (ix2 (0 : Fin 1) o)) o := by
  subst hD
  rw [addf_apply, broadcastTo_1b_ab_apply]
  exact congrArg (· + c (ix2 (0 : Fin 1) o)) (RowDims.matmul_plain_zero_apply none hin w p o)

/-- Scale, shift, clamp, compare with zero, select ±1, narrow the format: at (p, o) the activation of the scaled and
    shifted entry. -/
theorem actBlock_apply (z : FVec Ideal S256x2048 .f32) (s t : (⟨2, ![1, 2048]⟩ : Shape).Idx → EReal)
    (p : Fin 256) (o : Fin 2048) :
    (truncf .bf16 (select (cmpf .oge (minimumf (broadcast S256x2048 (Scalar.ofBits (F := Ideal) .f32 0x3F800000#32))
        (maximumf (broadcast S256x2048 (Scalar.ofBits (F := Ideal) .f32 0xBF800000#32))
          (addf (mulf z (broadcastTo S256x2048 s broadcasts_S1x2048_S256x2048))
            (broadcastTo S256x2048 t broadcasts_S1x2048_S256x2048))))
        (broadcast S256x2048 (Scalar.ofBits (F := Ideal) .f32 0x00000000#32)))
        (broadcast S256x2048 (Scalar.ofBits (F := Ideal) .f32 0x3F800000#32))
        (broadcast S256x2048 (Scalar.ofBits (F := Ideal) .f32 0xBF800000#32))) bitsLt_bf16_f32 : FVec Ideal S256x2048 .bf16) (ix2 p o)
      = act (z (ix2 p o) * s (ix2 (0 : Fin 1) o) + t (ix2 (0 : Fin 1) o)) := by
  have es := broadcastTo_1b_ab_apply s broadcasts_S1x2048_S256x2048 p o
  have et := broadcastTo_1b_ab_apply t broadcasts_S1x2048_S256x2048 p o
  show act (z (ix2 p o) * broadcastTo S256x2048 s broadcasts_S1x2048_S256x2048 (ix2 p o)
    + broadcastTo S256x2048 t broadcasts_S1x2048_S256x2048 (ix2 p o)) = _
  rw [es, et]

/-- The parameters as the body finds them in its blocks. -/
def blockParams (x1 : Vec Ideal S784x2048 .bf16) (x2 x3 x4 : Vec Ideal S1x2048 .f32) (x5 : Vec Ideal S2048x2048 .bf16)
    (x6 x7 x8 : Vec Ideal S1x2048 .f32) (x9 : Vec Ideal S2048x10 .bf16) (x10 : Vec Ideal S1x10 .f32) : Params where
  W1 o k := x1 (ix2 k o)
  c1 o := x2 (ix2 (0 : Fin 1) o)
  s1 o := x3 (ix2 (0 : Fin 1) o)
  t1 o := x4 (ix2 (0 : Fin 1) o)
  W2 o k := x5 (ix2 k o)
  c2 o := x6 (ix2 (0 : Fin 1) o)
  s2 o := x7 (ix2 (0 : Fin 1) o)
  t2 o := x8 (ix2 (0 : Fin 1) o)
  W3 o k := x9 (ix2 k o)
  c3 o := x10 (ix2 (0 : Fin 1) o)

/-- The three products of the body contract the left operand's columns against the right operand's rows. -/
theorem dims1 : dot_S256x784_S784x2048_S256x2048_1_0_0_1_n_n = DotDims.plain 256 784 2048 := rfl
theorem dims2 : dot_S256x2048_S2048x2048_S256x2048_1_0_0_1_n_n = DotDims.plain 256 2048 2048 := rfl
theorem dims3 : dot_S256x2048_S2048x10_S256x10_1_0_0_1_n_n = DotDims.plain 256 2048 10 := rfl

/-- The second layer's dense output, which the body carries from its first part to its second: at (p, o), the dense
    layer on the first hidden layer of row p. -/
theorem dense2_apply (x0 : Vec Ideal S256x784 .f32) (x1 : Vec Ideal S784x2048 .bf16) (x2 x3 x4 : Vec Ideal S1x2048 .f32)
    (x5 : Vec Ideal S2048x2048 .bf16) (x6 : Vec Ideal S1x2048 .f32) (p : Fin 256) (o : Fin 2048) :
    k0_pay2 (F := Ideal) x0 x1 x2 x3 x4 x5 x6 (ix2 p o)
      = dense (hidden (fun k => x0 (ix2 p k)) (fun o k => x1 (ix2 k o)) (fun o => x2 (ix2 (0 : Fin 1) o))
          (fun o => x3 (ix2 (0 : Fin 1) o)) (fun o => x4 (ix2 (0 : Fin 1) o)))
          (fun o k => x5 (ix2 k o)) (fun o => x6 (ix2 (0 : Fin 1) o)) o := by
  unfold k0_pay2
  simp only [shapeCast_self]
  rw [denseBlock_apply _ dims2]
  refine congrArg (fun h => dense h (fun o k => x5 (ix2 k o)) (fun o => x6 (ix2 (0 : Fin 1) o)) o) (funext fun k => ?_)
  rw [actBlock_apply, denseBlock_apply _ dims1]
  rfl

/-- THE STORED BLOCK at (p, q): the network on row p of the input block. -/
theorem stored_apply (x0 : Vec Ideal S256x784 .f32) (x1 : Vec Ideal S784x2048 .bf16) (x2 x3 x4 : Vec Ideal S1x2048 .f32)
    (x5 : Vec Ideal S2048x2048 .bf16) (x6 x7 x8 : Vec Ideal S1x2048 .f32) (x9 : Vec Ideal S2048x10 .bf16)
    (x10 : Vec Ideal S1x10 .f32) (p : Fin 256) (q : Fin 10) :
    k0_pay1 (F := Ideal) (k0_pay2 x0 x1 x2 x3 x4 x5 x6) x7 x8 x9 x10 (ix2 p q)
      = rowOut (blockParams x1 x2 x3 x4 x5 x6 x7 x8 x9 x10) (fun k => x0 (ix2 p k)) q := by
  unfold k0_pay1
  simp only [shapeCast_self]
  rw [denseBlock_apply _ dims3]
  refine congrArg (fun h => dense h (fun o k => x9 (ix2 k o)) (fun o => x10 (ix2 (0 : Fin 1) o)) q) (funext fun k => ?_)
  rw [actBlock_apply, dense2_apply]
  rfl

/-- The stored block against the batch: if the block's parameters are `P` and its input block is the 256 rows of
    `X` from row `r0` on, then its entry `j` is the logits of `X` at the array entry `i` that lies `r0` rows below. -/
theorem stored_rows (x0 : Vec Ideal S256x784 .f32) (x1 : Vec Ideal S784x2048 .bf16) (x2 x3 x4 : Vec Ideal S1x2048 .f32)
    (x5 : Vec Ideal S2048x2048 .bf16) (x6 x7 x8 : Vec Ideal S1x2048 .f32) (x9 : Vec Ideal S2048x10 .bf16)
    (x10 : Vec Ideal S1x10 .f32) (P : Params) (X : (⟨2, ![16384, 784]⟩ : Shape).Idx → EReal) (r0 : Nat)
    (hP : blockParams x1 x2 x3 x4 x5 x6 x7 x8 x9 x10 = P)
    (hX : ∀ (p : Fin 256) (k : Fin 784) (i : (⟨2, ![16384, 784]⟩ : Shape).Idx),
      (i 0).val = r0 + p.val → (i 1).val = k.val → x0 (ix2 p k) = X i)
    (j : S256x10.Idx) (i : S16384x10.Idx) (hi0 : (i 0).val = r0 + (j 0).val) (hi1 : (i 1).val = (j 1).val) :
    k0_pay1 (F := Ideal) (k0_pay2 x0 x1 x2 x3 x4 x5 x6) x7 x8 x9 x10 j = logits P X i := by
  obtain ⟨p, q, rfl⟩ : ∃ (p : Fin 256) (q : Fin 10), j = ix2 p q := ⟨j 0, j 1, eq_ix2 j⟩
  rw [stored_apply, hP]
  unfold logits
  have hq : i 1 = q := Fin.ext hi1
  rw [hq]
  refine congrArg (fun x => rowOut P x q) (funext fun k => ?_)
  exact hX p k (ix2 (i 0) k) hi0 rfl

end Cert.KernelIdeal.Body

end
-- ==== Proof.KernelWindows.lean ====
/-
  The arrays the kernel's windows stage, as the region finds them: each is a short chain of host operations of the
  arguments — the input batch flattened to rows; each weight matrix replaced by its signs, transposed and narrowed;
  each hidden layer's folded scale and shift and each bias, recast from a vector to one row. Read entry by entry
  they are the network's parameters (Spec): the transposed sign matrix at (k, o) is the sign of the weight at (o, k),
  a recast vector at (0, o) is the vector at o, and the folded scale and shift are `γ · rsqrt(var + ε)` and
  `β − μ · scale` entry by entry.
-/
import proofs.«122004_j54013508715380_1_alg».proof.Proof.Gen.KernelIdeal.Frame
import proofs.«122004_j54013508715380_1_alg».proof.Proof.Spec
import Idealize.ShloMosaic.Lib.Pipeline.Value
import Idealize.ShloMosaic.Lib.ValueLayout
import Idealize.ShloMosaic.Lib.StableHlo.Run

noncomputable section

namespace Cert.KernelIdeal.Windows

open Cert.KernelIdeal Cert.KernelIdeal.Gen Idealize.ShloMosaic Idealize.ShloMosaic.TcCoe Idealize.ShloMosaic.ValueIdx Cert.Bnn
open Idealize.SL.Sem Idealize.ShloMosaic.StableHlo

variable (m : (ℓ : Loc nD τ sig) → Buf (Elt Ideal) ℓ)

/-- A buffer the host operations before the region wrote: the valuation after them, read at that buffer, is the
    composed term of the operations that feed it. -/
local macro "read_entry_array" : tactic =>
  `(tactic| (dsimp only [V, V0]
             simp only [hostOps0, hostOps0_1, hostOps0_2, hostOps0_3, hostOps0_4, hostOps0_5, hostOps0_6, List.flatten_cons,
               List.flatten_nil, List.append_nil, List.cons_append, List.nil_append]
             after_results_simp <;> rfl))

/-! ## The staged arrays as terms of the arguments -/

/-- Window 0 stages the input batch flattened to 16384 rows of 784. -/
theorem arr0 (c : Dev nD) :
    (V m c main_v0 : S16384x784.Idx → EReal)
      = shapeCast S16384x784 (m ((c : Thread nD τ).loc main_arg0)) shapeCasts_S16384x1x28x28_S16384x784 := by
  read_entry_array

/-- Window 1 stages the first weight matrix's signs, transposed. -/
theorem arr1 (c : Dev nD) :
    (V m c main_v6 : S784x2048.Idx → EReal)
      = truncf .bf16 (transpose S784x2048 [1, 0] (id (select (cmpf .oge ((m ((c : Thread nD τ).loc main_arg1)) : FVec Ideal S2048x784 .f32) (broadcastInDim S2048x784 ![] bcast_S_S2048x784 (constant (F := Ideal) S_ .f32 0x00000000#32)))
          (broadcastInDim S2048x784 ![] bcast_S_S2048x784 (constant (F := Ideal) S_ .f32 0x3F800000#32)) (broadcastInDim S2048x784 ![] bcast_S_S2048x784 (constant (F := Ideal) S_ .f32 0xBF800000#32)))) transposes_S2048x784_S784x2048_1_0) bitsLt_bf16_f32 := by
  read_entry_array

/-- Window 2 stages the first bias as one row. -/
theorem arr2 (c : Dev nD) :
    (V m c main_v31 : S1x2048.Idx → EReal)
      = shapeCast S1x2048 (m ((c : Thread nD τ).loc main_arg2)) shapeCasts_S2048_S1x2048 := by
  read_entry_array

/-- Window 3 stages the first hidden layer's folded scale as one row. -/
theorem arr3 (c : Dev nD) :
    (V m c main_v32 : S1x2048.Idx → EReal)
      = shapeCast S1x2048 (mulf ((m ((c : Thread nD τ).loc main_arg3)) : FVec Ideal S2048 .f32) (Host.rsqrt (addf ((m ((c : Thread nD τ).loc main_arg6)) : FVec Ideal S2048 .f32) (broadcastInDim S2048 ![] bcast_S_S2048 (constant (F := Ideal) S_ .f32 0x3727C5AC#32))))) shapeCasts_S2048_S1x2048 := by
  read_entry_array

/-- Window 4 stages the first hidden layer's folded shift as one row. -/
theorem arr4 (c : Dev nD) :
    (V m c main_v33 : S1x2048.Idx → EReal)
      = shapeCast S1x2048 (subf ((m ((c : Thread nD τ).loc main_arg4)) : FVec Ideal S2048 .f32) (mulf ((m ((c : Thread nD τ).loc main_arg5)) : FVec Ideal S2048 .f32) (mulf ((m ((c : Thread nD τ).loc main_arg3)) : FVec Ideal S2048 .f32) (Host.rsqrt (addf ((m ((c : Thread nD τ).loc main_arg6)) : FVec Ideal S2048 .f32) (broadcastInDim S2048 ![] bcast_S_S2048 (constant (F := Ideal) S_ .f32 0x3727C5AC#32))))))) shapeCasts_S2048_S1x2048 := by
  read_entry_array

/-- Window 5 stages the second weight matrix's signs, transposed. -/
theorem arr5 (c : Dev nD) :
    (V m c main_v12 : S2048x2048.Idx → EReal)
      = truncf .bf16 (transpose S2048x2048 [1, 0] (id (select (cmpf .oge ((m ((c : Thread nD τ).loc main_arg7)) : FVec Ideal S2048x2048 .f32) (broadcastInDim S2048x2048 ![] bcast_S_S2048x2048 (constant (F := Ideal) S_ .f32 0x00000000#32)))
          (broadcastInDim S2048x2048 ![] bcast_S_S2048x2048 (constant (F := Ideal) S_ .f32 0x3F800000#32)) (broadcastInDim S2048x2048 ![] bcast_S_S2048x2048 (constant (F := Ideal) S_ .f32 0xBF800000#32)))) transposes_S2048x2048_S2048x2048_1_0) bitsLt_bf16_f32 := by
  read_entry_array

/-- Window 6 stages the second bias as one row. -/
theorem arr6 (c : Dev nD) :
    (V m c main_v34 : S1x2048.Idx → EReal)
      = shapeCast S1x2048 (m ((c : Thread nD τ).loc main_arg8)) shapeCasts_S2048_S1x2048 := by
  read_entry_array

/-- Window 7 stages the second hidden layer's folded scale as one row. -/
theorem arr7 (c : Dev nD) :
    (V m c main_v35 : S1x2048.Idx → EReal)
      = shapeCast S1x2048 (mulf ((m ((c : Thread nD τ).loc main_arg9)) : FVec Ideal S2048 .f32) (Host.rsqrt (addf ((m ((c : Thread nD τ).loc main_arg12)) : FVec Ideal S2048 .f32) (broadcastInDim S2048 ![] bcast_S_S2048 (constant (F := Ideal) S_ .f32 0x3727C5AC#32))))) shapeCasts_S2048_S1x2048 := by
  read_entry_array

/-- Window 8 stages the second hidden layer's folded shift as one row. -/
theorem arr8 (c : Dev nD) :
    (V m c main_v36 : S1x2048.Idx → EReal)
      = shapeCast S1x2048 (subf ((m ((c : Thread nD τ).loc main_arg10)) : FVec Ideal S2048 .f32) (mulf ((m ((c : Thread nD τ).loc main_arg11)) : FVec Ideal S2048 .f32) (mulf ((m ((c : Thread nD τ).loc main_arg9)) : FVec Ideal S2048 .f32) (Host.rsqrt (addf ((m ((c : Thread nD τ).loc main_arg12)) : FVec Ideal S2048 .f32) (broadcastInDim S2048 ![] bcast_S_S2048 (constant (F := Ideal) S_ .f32 0x3727C5AC#32))))))) shapeCasts_S2048_S1x2048 := by
  read_entry_array

/-- Window 9 stages the third weight matrix's signs, transposed. -/
theorem arr9 (c : Dev nD) :
    (V m c main_v18 : S2048x10.Idx → EReal)
      = truncf .bf16 (transpose S2048x10 [1, 0] (id (select (cmpf .oge ((m ((c : Thread nD τ).loc main_arg13)) : FVec Ideal S10x2048 .f32) (broadcastInDim S10x2048 ![] bcast_S_S10x2048 (constant (F := Ideal) S_ .f32 0x00000000#32)))
          (broadcastInDim S10x2048 ![] bcast_S_S10x2048 (constant (F := Ideal) S_ .f32 0x3F800000#32)) (broadcastInDim S10x2048 ![] bcast_S_S10x2048 (constant (F := Ideal) S_ .f32 0xBF800000#32)))) transposes_S10x2048_S2048x10_1_0) bitsLt_bf16_f32 := by
  read_entry_array

/-- Window 10 stages the last bias as one row. -/
theorem arr10 (c : Dev nD) :
    (V m c main_v37 : S1x10.Idx → EReal)
      = shapeCast S1x10 (m ((c : Thread nD τ).loc main_arg14)) shapeCasts_S10_S1x10 := by
  read_entry_array

/-! ## Their entries -/

/-- A scalar constant broadcast to any shape reads the constant's value at every index. -/
theorem bcastConst_apply {s : Shape} (h : S_.BroadcastsInDim s (![] : Fin 0 → Fin s.rank)) (b : BitVec 32) (i : s.Idx) :
    broadcastInDim s ![] h (constant (F := Ideal) S_ .f32 b) i = Ideal.ofBits .f32 b :=
  broadcastInDim_apply _ h _ i ix0 (fun a => a.elim0)

/-- The sign matrix, transposed and narrowed, at (k, o): the sign of the weight at (o, k). -/
theorem signsT_apply {a b : Nat} (w : FVec Ideal ⟨2, ![a, b]⟩ .f32)
    (hb : S_.BroadcastsInDim ⟨2, ![a, b]⟩ (![] : Fin 0 → Fin 2))
    (ht : (⟨2, ![a, b]⟩ : Shape).Transposes [1, 0] ⟨2, ![b, a]⟩) (hl : FTy.bits .bf16 < FTy.bits .f32) (k : Fin b) (o : Fin a) :
    (truncf .bf16 (transpose ⟨2, ![b, a]⟩ [1, 0] (id (select (cmpf .oge w
            (broadcastInDim ⟨2, ![a, b]⟩ ![] hb (constant (F := Ideal) S_ .f32 0x00000000#32)))
          (broadcastInDim ⟨2, ![a, b]⟩ ![] hb (constant (F := Ideal) S_ .f32 0x3F800000#32))
          (broadcastInDim ⟨2, ![a, b]⟩ ![] hb (constant (F := Ideal) S_ .f32 0xBF800000#32)))) ht) hl
        : FVec Ideal ⟨2, ![b, a]⟩ .bf16) (ix2 k o) = sgn (w (ix2 o k)) := by
  rw [truncf_apply, transpose_ix2_apply]
  show Scalar.select (Ideal.cmp .oge (w (ix2 o k)) (broadcastInDim ⟨2, ![a, b]⟩ ![] hb (constant (F := Ideal) S_ .f32 0x00000000#32) (ix2 o k)))
      (broadcastInDim ⟨2, ![a, b]⟩ ![] hb (constant (F := Ideal) S_ .f32 0x3F800000#32) (ix2 o k))
      (broadcastInDim ⟨2, ![a, b]⟩ ![] hb (constant (F := Ideal) S_ .f32 0xBF800000#32) (ix2 o k)) = _
  rw [bcastConst_apply, bcastConst_apply, bcastConst_apply]
  rfl

/-- A folded scale, recast to one row, at (0, o). -/
theorem scaleRow_apply (g v : FVec Ideal S2048 .f32) (u : Fin 1) (o : Fin 2048) :
    shapeCast S1x2048 (mulf g (Host.rsqrt (addf v (broadcastInDim S2048 ![] bcast_S_S2048 (constant (F := Ideal) S_ .f32 0x3727C5AC#32))))) shapeCasts_S2048_S1x2048 (ix2 u o)
      = bnScale (g (ix1 o)) (v (ix1 o)) := by
  rw [shapeCast_a_1a_apply]
  show g (ix1 o) * Ideal.hostUnary .rsqrt (v (ix1 o) + (broadcastInDim S2048 ![] bcast_S_S2048 (constant (F := Ideal) S_ .f32 0x3727C5AC#32)) (ix1 o)) = _
  rw [bcastConst_apply]
  rfl

/-- A folded shift, recast to one row, at (0, o). -/
theorem shiftRow_apply (be mu g v : FVec Ideal S2048 .f32) (u : Fin 1) (o : Fin 2048) :
    shapeCast S1x2048 (subf be (mulf mu (mulf g (Host.rsqrt (addf v (broadcastInDim S2048 ![] bcast_S_S2048 (constant (F := Ideal) S_ .f32 0x3727C5AC#32))))))) shapeCasts_S2048_S1x2048 (ix2 u o)
      = bnShift (be (ix1 o)) (mu (ix1 o)) (g (ix1 o)) (v (ix1 o)) := by
  rw [shapeCast_a_1a_apply]
  show be (ix1 o) - mu (ix1 o) * (g (ix1 o) * Ideal.hostUnary .rsqrt (v (ix1 o) + (broadcastInDim S2048 ![] bcast_S_S2048 (constant (F := Ideal) S_ .f32 0x3727C5AC#32)) (ix1 o))) = _
  rw [bcastConst_apply]
  rfl

/-- The network's parameters from the arguments on core `c`. -/
def params (c : Dev nD) : Params :=
  Params.ofArrays (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))
    (m ((c : Thread nD τ).loc main_arg13)) (m ((c : Thread nD τ).loc main_arg14))

/-- The flattened input batch on core `c`. -/
def rows (c : Dev nD) : S16384x784.Idx → EReal :=
  shapeCast S16384x784 (m ((c : Thread nD τ).loc main_arg0)) shapeCasts_S16384x1x28x28_S16384x784

/-- The ten staged parameter arrays, read as the body reads its blocks, are the network's parameters. -/
theorem params_eq (c : Dev nD) :
    (⟨fun o k => V m c main_v6 (ix2 k o), fun o => V m c main_v31 (ix2 (0 : Fin 1) o), fun o => V m c main_v32 (ix2 (0 : Fin 1) o),
      fun o => V m c main_v33 (ix2 (0 : Fin 1) o), fun o k => V m c main_v12 (ix2 k o), fun o => V m c main_v34 (ix2 (0 : Fin 1) o),
      fun o => V m c main_v35 (ix2 (0 : Fin 1) o), fun o => V m c main_v36 (ix2 (0 : Fin 1) o), fun o k => V m c main_v18 (ix2 k o),
      fun o => V m c main_v37 (ix2 (0 : Fin 1) o)⟩ : Params) = params m c := by
  unfold params Params.ofArrays
  congr 1
  · funext o k; rw [arr1]; exact signsT_apply _ _ _ _ k o
  · funext o; rw [arr2]; exact shapeCast_a_1a_apply _ _ _ o
  · funext o; rw [arr3]; exact scaleRow_apply _ _ _ o
  · funext o; rw [arr4]; exact shiftRow_apply _ _ _ _ _ o
  · funext o k; rw [arr5]; exact signsT_apply _ _ _ _ k o
  · funext o; rw [arr6]; exact shapeCast_a_1a_apply _ _ _ o
  · funext o; rw [arr7]; exact scaleRow_apply _ _ _ o
  · funext o; rw [arr8]; exact shiftRow_apply _ _ _ _ _ o
  · funext o k; rw [arr9]; exact signsT_apply _ _ _ _ k o
  · funext o; rw [arr10]; exact shapeCast_a_1a_apply _ _ _ o

end Cert.KernelIdeal.Windows

end
-- ==== Proof.KernelValue.lean ====
/-
  From the body's blocks to the kernel's result. The grid has 64 points; point t stages rows 256·t … 256·t + 255 of
  the flattened batch and every parameter array whole, and writes back rows 256·t … 256·t + 255 of the logits array.
  Since an entry of the logits depends on one row of the batch only (Spec), what point t writes back is block t of
  ONE whole-array function, the logits of the batch; the 64 blocks tile the 16384 rows, so the array ends holding that
  function. The host lines after the region multiply it, entry by entry, by the scalar broadcast to its shape.
-/
import proofs.«122004_j54013508715380_1_alg».proof.Proof.Gen.KernelIdeal.Frame
import proofs.«122004_j54013508715380_1_alg».proof.Proof.Spec
import proofs.«122004_j54013508715380_1_alg».proof.Proof.KernelBody
import proofs.«122004_j54013508715380_1_alg».proof.Proof.KernelWindows
import Idealize.ShloMosaic.Lib.Pipeline.Value
import Idealize.ShloMosaic.Lib.StableHlo.Run

set_option maxRecDepth 16384

noncomputable section

namespace Cert.KernelIdeal.Result

open Cert.KernelIdeal Cert.KernelIdeal.Gen Idealize.ShloMosaic Idealize.ShloMosaic.TcCoe Idealize.ShloMosaic.ValueIdx Cert.Bnn
open Cert.KernelIdeal.Body Cert.KernelIdeal.Windows Idealize.SL.Sem Idealize.ShloMosaic.StableHlo
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The printed index maps, decided over the 64 grid points: the batch window and the output window sit at block row
    `t`, block column 0; every parameter window sits at block (0, 0). -/
theorem idx_facts : ∀ t : Fin cfg0.N,
    (win0_0.index t (0 : Fin 2) = t.val ∧ win0_0.index t (1 : Fin 2) = 0)
    ∧ (win0_11.index t (0 : Fin 2) = t.val ∧ win0_11.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0) :=
  (by decide +kernel : ∀ t : Fin grid0.N, _)

/-! ## The input blocks, read back to their arrays -/

/-- Window 1's block at any point is its whole array. -/
theorem blk1 (c : Dev nD) (t : Fin cfg0.N) : (iblk m c 1 t : S784x2048.Idx → EReal) = V m c main_v6 := by
  funext y
  have e := (idx_facts t).2.2.1
  have h : ((cfg0.win 1).blk t).view.emb y = y := by
    funext a; apply Fin.ext
    match a with
    | ⟨0, _⟩ => show win0_1.index t (0 : Fin 2) * 784 + 1 * (y 0).val = (y 0).val; rw [e.1]; omega
    | ⟨1, _⟩ => show win0_1.index t (1 : Fin 2) * 2048 + 1 * (y 1).val = (y 1).val; rw [e.2]; omega
  show V m c main_v6 (((cfg0.win 1).blk t).view.emb y) = V m c main_v6 y
  rw [h]

/-- Window 2's block at any point is its whole array. -/
theorem blk2 (c : Dev nD) (t : Fin cfg0.N) : (iblk m c 2 t : S1x2048.Idx → EReal) = V m c main_v31 := by
  funext y
  have e := (idx_facts t).2.2.2.1
  have h : ((cfg0.win 2).blk t).view.emb y = y := by
    funext a; apply Fin.ext
    match a with
    | ⟨0, _⟩ => show win0_2.index t (0 : Fin 2) * 1 + 1 * (y 0).val = (y 0).val; rw [e.1]; omega
    | ⟨1, _⟩ => show win0_2.index t (1 : Fin 2) * 2048 + 1 * (y 1).val = (y 1).val; rw [e.2]; omega
  show V m c main_v31 (((cfg0.win 2).blk t).view.emb y) = V m c main_v31 y
  rw [h]

/-- Window 3's block at any point is its whole array. -/
theorem blk3 (c : Dev nD) (t : Fin cfg0.N) : (iblk m c 3 t : S1x2048.Idx → EReal) = V m c main_v32 := by
  funext y
  have e := (idx_facts t).2.2.2.2.1
  have h : ((cfg0.win 3).blk t).view.emb y = y := by
    funext a; apply Fin.ext
    match a with
    | ⟨0, _⟩ => show win0_3.index t (0 : Fin 2) * 1 + 1 * (y 0).val = (y 0).val; rw [e.1]; omega
    | ⟨1, _⟩ => show win0_3.index t (1 : Fin 2) * 2048 + 1 * (y 1).val = (y 1).val; rw [e.2]; omega
  show V m c main_v32 (((cfg0.win 3).blk t).view.emb y) = V m c main_v32 y
  rw [h]

/-- Window 4's block at any point is its whole array. -/
theorem blk4 (c : Dev nD) (t : Fin cfg0.N) : (iblk m c 4 t : S1x2048.Idx → EReal) = V m c main_v33 := by
  funext y
  have e := (idx_facts t).2.2.2.2.2.1
  have h : ((cfg0.win 4).blk t).view.emb y = y := by
    funext a; apply Fin.ext
    match a with
    | ⟨0, _⟩ => show win0_4.index t (0 : Fin 2) * 1 + 1 * (y 0).val = (y 0).val; rw [e.1]; omega
    | ⟨1, _⟩ => show win0_4.index t (1 : Fin 2) * 2048 + 1 * (y 1).val = (y 1).val; rw [e.2]; omega
  show V m c main_v33 (((cfg0.win 4).blk t).view.emb y) = V m c main_v33 y
  rw [h]

/-- Window 5's block at any point is its whole array. -/
theorem blk5 (c : Dev nD) (t : Fin cfg0.N) : (iblk m c 5 t : S2048x2048.Idx → EReal) = V m c main_v12 := by
  funext y
  have e := (idx_facts t).2.2.2.2.2.2.1
  have h : ((cfg0.win 5).blk t).view.emb y = y := by
    funext a; apply Fin.ext
    match a with
    | ⟨0, _⟩ => show win0_5.index t (0 : Fin 2) * 2048 + 1 * (y 0).val = (y 0).val; rw [e.1]; omega
    | ⟨1, _⟩ => show win0_5.index t (1 : Fin 2) * 2048 + 1 * (y 1).val = (y 1).val; rw [e.2]; omega
  show V m c main_v12 (((cfg0.win 5).blk t).view.emb y) = V m c main_v12 y
  rw [h]

/-- Window 6's block at any point is its whole array. -/
theorem blk6 (c : Dev nD) (t : Fin cfg0.N) : (iblk m c 6 t : S1x2048.Idx → EReal) = V m c main_v34 := by
  funext y
  have e := (idx_facts t).2.2.2.2.2.2.2.1
  have h : ((cfg0.win 6).blk t).view.emb y = y := by
    funext a; apply Fin.ext
    match a with
    | ⟨0, _⟩ => show win0_6.index t (0 : Fin 2) * 1 + 1 * (y 0).val = (y 0).val; rw [e.1]; omega
    | ⟨1, _⟩ => show win0_6.index t (1 : Fin 2) * 2048 + 1 * (y 1).val = (y 1).val; rw [e.2]; omega
  show V m c main_v34 (((cfg0.win 6).blk t).view.emb y) = V m c main_v34 y
  rw [h]

/-- Window 7's block at any point is its whole array. -/
theorem blk7 (c : Dev nD) (t : Fin cfg0.N) : (iblk m c 7 t : S1x2048.Idx → EReal) = V m c main_v35 := by
  funext y
  have e := (idx_facts t).2.2.2.2.2.2.2.2.1
  have h : ((cfg0.win 7).blk t).view.emb y = y := by
    funext a; apply Fin.ext
    match a with
    | ⟨0, _⟩ => show win0_7.index t (0 : Fin 2) * 1 + 1 * (y 0).val = (y 0).val; rw [e.1]; omega
    | ⟨1, _⟩ => show win0_7.index t (1 : Fin 2) * 2048 + 1 * (y 1).val = (y 1).val; rw [e.2]; omega
  show V m c main_v35 (((cfg0.win 7).blk t).view.emb y) = V m c main_v35 y
  rw [h]

/-- Window 8's block at any point is its whole array. -/
theorem blk8 (c : Dev nD) (t : Fin cfg0.N) : (iblk m c 8 t : S1x2048.Idx → EReal) = V m c main_v36 := by
  funext y
  have e := (idx_facts t).2.2.2.2.2.2.2.2.2.1
  have h : ((cfg0.win 8).blk t).view.emb y = y := by
    funext a; apply Fin.ext
    match a with
    | ⟨0, _⟩ => show win0_8.index t (0 : Fin 2) * 1 + 1 * (y 0).val = (y 0).val; rw [e.1]; omega
    | ⟨1, _⟩ => show win0_8.index t (1 : Fin 2) * 2048 + 1 * (y 1).val = (y 1).val; rw [e.2]; omega
  show V m c main_v36 (((cfg0.win 8).blk t).view.emb y) = V m c main_v36 y
  rw [h]

/-- Window 9's block at any point is its whole array. -/
theorem blk9 (c : Dev nD) (t : Fin cfg0.N) : (iblk m c 9 t : S2048x10.Idx → EReal) = V m c main_v18 := by
  funext y
  have e := (idx_facts t).2.2.2.2.2.2.2.2.2.2.1
  have h : ((cfg0.win 9).blk t).view.emb y = y := by
    funext a; apply Fin.ext
    match a with
    | ⟨0, _⟩ => show win0_9.index t (0 : Fin 2) * 2048 + 1 * (y 0).val = (y 0).val; rw [e.1]; omega
    | ⟨1, _⟩ => show win0_9.index t (1 : Fin 2) * 10 + 1 * (y 1).val = (y 1).val; rw [e.2]; omega
  show V m c main_v18 (((cfg0.win 9).blk t).view.emb y) = V m c main_v18 y
  rw [h]

/-- Window 10's block at any point is its whole array. -/
theorem blk10 (c : Dev nD) (t : Fin cfg0.N) : (iblk m c 10 t : S1x10.Idx → EReal) = V m c main_v37 := by
  funext y
  have e := (idx_facts t).2.2.2.2.2.2.2.2.2.2.2
  have h : ((cfg0.win 10).blk t).view.emb y = y := by
    funext a; apply Fin.ext
    match a with
    | ⟨0, _⟩ => show win0_10.index t (0 : Fin 2) * 1 + 1 * (y 0).val = (y 0).val; rw [e.1]; omega
    | ⟨1, _⟩ => show win0_10.index t (1 : Fin 2) * 10 + 1 * (y 1).val = (y 1).val; rw [e.2]; omega
  show V m c main_v37 (((cfg0.win 10).blk t).view.emb y) = V m c main_v37 y
  rw [h]

/-- Two parameter records with equal fields are equal. -/
theorem params_congr {W1 W1' : Fin 2048 → Fin 784 → EReal} {c1 c1' s1 s1' t1 t1' : Fin 2048 → EReal}
    {W2 W2' : Fin 2048 → Fin 2048 → EReal} {c2 c2' s2 s2' t2 t2' : Fin 2048 → EReal}
    {W3 W3' : Fin 10 → Fin 2048 → EReal} {c3 c3' : Fin 10 → EReal}
    (h1 : W1 = W1') (h2 : c1 = c1') (h3 : s1 = s1') (h4 : t1 = t1') (h5 : W2 = W2') (h6 : c2 = c2') (h7 : s2 = s2')
    (h8 : t2 = t2') (h9 : W3 = W3') (h10 : c3 = c3') :
    (⟨W1, c1, s1, t1, W2, c2, s2, t2, W3, c3⟩ : Params) = ⟨W1', c1', s1', t1', W2', c2', s2', t2', W3', c3'⟩ := by
  subst h1 h2 h3 h4 h5 h6 h7 h8 h9 h10; rfl

/-- The parameters the body finds in its blocks, at any point, are the network's parameters. -/
theorem blockParams_eq (c : Dev nD) (t : Fin cfg0.N) :
    blockParams (iblk m c 1 t) (iblk m c 2 t) (iblk m c 3 t) (iblk m c 4 t) (iblk m c 5 t) (iblk m c 6 t) (iblk m c 7 t)
      (iblk m c 8 t) (iblk m c 9 t) (iblk m c 10 t) = params m c := by
  refine Eq.trans ?_ (params_eq m c)
  unfold blockParams
  exact params_congr
    (funext fun o => funext fun k => congrFun (blk1 m c t) (ix2 k o))
    (funext fun o => congrFun (blk2 m c t) (ix2 (0 : Fin 1) o))
    (funext fun o => congrFun (blk3 m c t) (ix2 (0 : Fin 1) o))
    (funext fun o => congrFun (blk4 m c t) (ix2 (0 : Fin 1) o))
    (funext fun o => funext fun k => congrFun (blk5 m c t) (ix2 k o))
    (funext fun o => congrFun (blk6 m c t) (ix2 (0 : Fin 1) o))
    (funext fun o => congrFun (blk7 m c t) (ix2 (0 : Fin 1) o))
    (funext fun o => congrFun (blk8 m c t) (ix2 (0 : Fin 1) o))
    (funext fun o => funext fun k => congrFun (blk9 m c t) (ix2 k o))
    (funext fun o => congrFun (blk10 m c t) (ix2 (0 : Fin 1) o))

/-- The batch window's block at point `t` is the 256 rows of the flattened batch from row 256·t on. -/
theorem blk0 (c : Dev nD) (t : Fin cfg0.N) (p : Fin 256) (k : Fin 784) (i : S16384x784.Idx)
    (hi0 : (i 0).val = t.val * 256 + p.val) (hi1 : (i 1).val = k.val) :
    (iblk m c 0 t : S256x784.Idx → EReal) (ix2 p k) = rows m c i := by
  have e := (idx_facts t).1
  have h : ((cfg0.win 0).blk t).view.emb (ix2 p k) = i := by
    funext a; apply Fin.ext
    match a with
    | ⟨0, _⟩ => show win0_0.index t (0 : Fin 2) * 256 + 1 * p.val = (i 0).val; rw [e.1]; omega
    | ⟨1, _⟩ => show win0_0.index t (1 : Fin 2) * 784 + 1 * k.val = (i 1).val; rw [e.2]; omega
  show V m c main_v0 (((cfg0.win 0).blk t).view.emb (ix2 p k)) = rows m c i
  rw [h, arr0]
  rfl

/-! ## What a point writes back, and the array after the run -/

/-- WHAT POINT `t` WRITES BACK is block `t` of the logits of the flattened batch. -/
theorem flushed_eq (c : Dev nD) (t : Fin cfg0.N) :
    (dats m 0 c).flushed 11 t = ((cfg0.win 11).blk t).view.read (Elt Ideal) (logits (params m c) (rows m c)) := by
  show (cfg0.win 11).cut (grid0.coords t) ((dats m 0 c).after 11 t) = _
  rw [after0_11]
  unfold out0_11
  rw [View.canon_unit_zero hz]
  simp only [View.ld_unit_zero (S := S256x784) hz, View.ld_unit_zero (S := S784x2048) hz, View.ld_unit_zero (S := S1x2048) hz,
    View.ld_unit_zero (S := S2048x2048) hz, View.ld_unit_zero (S := S2048x10) hz, View.ld_unit_zero (S := S1x10) hz]
  have e := (idx_facts t).2.1
  funext j
  refine stored_rows (iblk m c 0 t) (iblk m c 1 t) (iblk m c 2 t) (iblk m c 3 t) (iblk m c 4 t) (iblk m c 5 t) (iblk m c 6 t)
    (iblk m c 7 t) (iblk m c 8 t) (iblk m c 9 t) (iblk m c 10 t) (params m c) (rows m c) (t.val * 256) (blockParams_eq m c t)
    (fun p k i hi0 hi1 => blk0 m c t p k i hi0 hi1) j (((cfg0.win 11).blk t).view.emb j) ?_ ?_
  · show win0_11.index t (0 : Fin 2) * 256 + 1 * (j 0).val = t.val * 256 + (j 0).val
    rw [e.1]; omega
  · show win0_11.index t (1 : Fin 2) * 10 + 1 * (j 1).val = (j 1).val
    rw [e.2]; omega

/-- An index of the output array is in point `t`'s block iff each coordinate is in the block's range on its axis. -/
theorem mem_blk (t : Fin cfg0.N) (i : S16384x10.Idx) :
    i ∈ ((cfg0.win 11).blk t).view.set ↔ ∀ a : Fin 2, win0_11.index t a * S256x10.size a ≤ (i a).val
      ∧ (i a).val < win0_11.index t a * S256x10.size a + S256x10.size a := by
  show i ∈ ((View.whole main_v38).slice (win0_11.rect t)).set ↔ _
  rw [View.set_slice_whole, Rect.mem_set_unit]
  exact Iff.rfl

/-- The 64 blocks tile the output array: row r lies in the block of point r / 256. -/
theorem cover (i : S16384x10.Idx) :
    ∃ t : Fin cfg0.N, (cfg0.win 11).flush t = true ∧ i ∈ ((cfg0.win 11).blk t).view.set := by
  have h0 : (i 0).val < 16384 := (i 0).isLt
  have h1 : (i 1).val < 10 := (i 1).isLt
  have hN : (i 0).val / 256 < cfg0.N := by show _ < grid0.N; rw [N_0]; omega
  refine ⟨⟨(i 0).val / 256, hN⟩, flush0_11 _, ?_⟩
  have e := (idx_facts ⟨(i 0).val / 256, hN⟩).2.1
  rw [mem_blk]
  intro a
  match a with
  | ⟨0, _⟩ =>
    show win0_11.index ⟨(i 0).val / 256, hN⟩ (0 : Fin 2) * 256 ≤ (i 0).val
      ∧ (i 0).val < win0_11.index ⟨(i 0).val / 256, hN⟩ (0 : Fin 2) * 256 + 256
    rw [e.1]; show (i 0).val / 256 * 256 ≤ (i 0).val ∧ (i 0).val < (i 0).val / 256 * 256 + 256; omega
  | ⟨1, _⟩ =>
    show win0_11.index ⟨(i 0).val / 256, hN⟩ (1 : Fin 2) * 10 ≤ (i 1).val
      ∧ (i 1).val < win0_11.index ⟨(i 0).val / 256, hN⟩ (1 : Fin 2) * 10 + 10
    rw [e.2]; omega

/-- THE LOGITS ARRAY after the run. -/
theorem final (c : Dev nD) : (dats m 0 c).arrAt 11 cfg0.N = logits (params m c) (rows m c) :=
  (dats m 0 c).arrAt_eq_of_cover 11 (logits (params m c) (rows m c)) (fun t _ => flushed_eq m c t) cover

/-! ## The host lines after the region, and the run -/

/-- The scalar argument on core `c`. -/
def scalar (c : Dev nD) : EReal := (m ((c : Thread nD τ).loc main_arg15) : S_.Idx → EReal) ix0

/-- THE RESULT BUFFER after the lines that follow the region: the logits times the scalar, entry by entry. -/
theorem tail_result (c : Dev nD) :
    Pipeline.afterTail₀ cfgs (dats m) 0 (V0 m) [hostOps1] c main_v40 = scaled (params m c) (rows m c) (scalar m c) := by
  unfold Pipeline.afterTail₀
  show StableHlo.after hostOps1 _ (Proc.devRef .tc main_v40) = _
  after_results
  have e38 : Pipeline.withArrays (cfgs 0).spec c (V0 m c) (fun w => (dats m 0 c).arrAt w (cfgs 0).N) (Proc.devRef .tc main_v38)
      = logits (params m c) (rows m c) :=
    (Pipeline.withArrays_arr spec0 launch0.win.arr_inj c (V0 m c) (fun w => (dats m 0 c).arrAt w cfg0.N) 11).trans (final m c)
  have e15 : Pipeline.withArrays (cfgs 0).spec c (V0 m c) (fun w => (dats m 0 c).arrAt w (cfgs 0).N) (Proc.devRef .tc main_arg15)
      = m ((c : Thread nD τ).loc main_arg15) :=
    (Pipeline.withArrays_of_ne spec0 c (V0 m c) (fun w => (dats m 0 c).arrAt w cfg0.N) main_arg15
      (by exact (by decide : ∀ w, Pipeline.arrRef spec0 w ≠ main_arg15))).trans (V_main_arg15 m c)
  rw [e38, e15]
  funext i
  show logits (params m c) (rows m c) i
      * broadcastInDim S16384x10 ![] bcast_S_S16384x10 (m ((c : Thread nD τ).loc main_arg15) : S_.Idx → EReal) i = _
  rw [broadcastInDim_apply _ bcast_S_S16384x10 _ i ix0 (fun a => a.elim0)]
  rfl

/-- The frame run re-posted: the result at the logits times the scalar, the arguments unchanged. -/
theorem run : θ_run defs (onTc (τ := τ) (main (F := Ideal))) ⟨m, fun _ => 0, ρ⟩ fun r => ∀ c : Dev nD,
      r.2.mem ((c.tc : Thread nD τ).loc main_v40) = scaled (params m c) (rows m c) (scalar m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun r h c => ⟨((h c).2 main_v40 (Pipeline.mem_restRefs_of main_v40 (by decide) (by decide))).trans (tail_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c),
      ((h c).2 main_arg12 (Pipeline.mem_restRefs_of main_arg12 (by decide) (by decide))).trans (W_main_arg12 m (dats m) c),
      ((h c).2 main_arg13 (Pipeline.mem_restRefs_of main_arg13 (by decide) (by decide))).trans (W_main_arg13 m (dats m) c),
      ((h c).2 main_arg14 (Pipeline.mem_restRefs_of main_arg14 (by decide) (by decide))).trans (W_main_arg14 m (dats m) c),
      ((h c).2 main_arg15 (Pipeline.mem_restRefs_of main_arg15 (by decide) (by decide))).trans (W_main_arg15 m (dats m) c)⟩)
    (run_main m ρ)

end Cert.KernelIdeal.Result

end
-- ==== Proof.RefValue.lean ====
/-
  The reference, stage by stage, read at an entry: each weight matrix's signs; each hidden layer's folded scale and
  shift; each dense layer as the sum over the contracted coordinate, the right operand contracted on its last axis
  (so entry (b, o) pairs row b of the activations with row o of the sign matrix); the bias, scale and shift vectors
  broadcast over the batch; the clamp, the comparison with zero and the selection of ±1 entry by entry. Put together,
  entry (b, q) of the result is the network (Spec) on row b of the flattened batch, times the scalar.
-/
import proofs.«122004_j54013508715380_1_alg».proof.Proof.Gen.ReferenceIdeal.Read
import proofs.«122004_j54013508715380_1_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.TcCoe
open Idealize.ShloMosaic.ValueIdx Cert.Bnn

variable (x0 : (⟨S16384x1x28x28, .f32⟩ : BufTy).Contents (Elt Ideal))
  (x1 : (⟨S2048x784, .f32⟩ : BufTy).Contents (Elt Ideal))
  (x2 : (⟨S2048, .f32⟩ : BufTy).Contents (Elt Ideal))
  (x3 : (⟨S2048, .f32⟩ : BufTy).Contents (Elt Ideal))
  (x4 : (⟨S2048, .f32⟩ : BufTy).Contents (Elt Ideal))
  (x5 : (⟨S2048, .f32⟩ : BufTy).Contents (Elt Ideal))
  (x6 : (⟨S2048, .f32⟩ : BufTy).Contents (Elt Ideal))
  (x7 : (⟨S2048x2048, .f32⟩ : BufTy).Contents (Elt Ideal))
  (x8 : (⟨S2048, .f32⟩ : BufTy).Contents (Elt Ideal))
  (x9 : (⟨S2048, .f32⟩ : BufTy).Contents (Elt Ideal))
  (x10 : (⟨S2048, .f32⟩ : BufTy).Contents (Elt Ideal))
  (x11 : (⟨S2048, .f32⟩ : BufTy).Contents (Elt Ideal))
  (x12 : (⟨S2048, .f32⟩ : BufTy).Contents (Elt Ideal))
  (x13 : (⟨S10x2048, .f32⟩ : BufTy).Contents (Elt Ideal))
  (x14 : (⟨S10, .f32⟩ : BufTy).Contents (Elt Ideal))
  (x15 : (⟨S_, .f32⟩ : BufTy).Contents (Elt Ideal))

/-! ## Where each stage reads its operands -/

theorem lidx_main_v5_at (b : Fin 16384) (o : Fin 2048) (k : Fin 784) : lidx_main_v5 (ix2 b o) k = ix2 b k :=
  funext fun a => Fin.ext (by match a with | ⟨0, _⟩ => rfl | ⟨1, _⟩ => rfl)
theorem ridx_main_v5_at (b : Fin 16384) (o : Fin 2048) (k : Fin 784) : ridx_main_v5 (ix2 b o) k = ix2 o k :=
  funext fun a => Fin.ext (by match a with | ⟨0, _⟩ => rfl | ⟨1, _⟩ => rfl)
theorem lidx_main_v30_at (b : Fin 16384) (o : Fin 2048) (k : Fin 2048) : lidx_main_v30 (ix2 b o) k = ix2 b k :=
  funext fun a => Fin.ext (by match a with | ⟨0, _⟩ => rfl | ⟨1, _⟩ => rfl)
theorem ridx_main_v30_at (b : Fin 16384) (o : Fin 2048) (k : Fin 2048) : ridx_main_v30 (ix2 b o) k = ix2 o k :=
  funext fun a => Fin.ext (by match a with | ⟨0, _⟩ => rfl | ⟨1, _⟩ => rfl)
theorem lidx_main_v55_at (b : Fin 16384) (o : Fin 10) (k : Fin 2048) : lidx_main_v55 (ix2 b o) k = ix2 b k :=
  funext fun a => Fin.ext (by match a with | ⟨0, _⟩ => rfl | ⟨1, _⟩ => rfl)
theorem ridx_main_v55_at (b : Fin 16384) (o : Fin 10) (k : Fin 2048) : ridx_main_v55 (ix2 b o) k = ix2 o k :=
  funext fun a => Fin.ext (by match a with | ⟨0, _⟩ => rfl | ⟨1, _⟩ => rfl)
theorem idx_main_v7_at (b : Fin 16384) (o : Fin 2048) : idx_main_v7 (ix2 b o) = ix2 (0 : Fin 1) o :=
  funext fun a => Fin.ext (by match a with | ⟨0, _⟩ => rfl | ⟨1, _⟩ => rfl)
theorem idx_main_v6_at (u : Fin 1) (o : Fin 2048) : idx_main_v6 (ix2 u o) = ix1 o :=
  funext fun a => Fin.ext (by match a with | ⟨0, _⟩ => rfl)
theorem idx_main_v14_at (b : Fin 16384) (o : Fin 2048) : idx_main_v14 (ix2 b o) = ix2 (0 : Fin 1) o :=
  funext fun a => Fin.ext (by match a with | ⟨0, _⟩ => rfl | ⟨1, _⟩ => rfl)
theorem idx_main_v13_at (u : Fin 1) (o : Fin 2048) : idx_main_v13 (ix2 u o) = ix1 o :=
  funext fun a => Fin.ext (by match a with | ⟨0, _⟩ => rfl)
theorem idx_main_v19_at (b : Fin 16384) (o : Fin 2048) : idx_main_v19 (ix2 b o) = ix2 (0 : Fin 1) o :=
  funext fun a => Fin.ext (by match a with | ⟨0, _⟩ => rfl | ⟨1, _⟩ => rfl)
theorem idx_main_v18_at (u : Fin 1) (o : Fin 2048) : idx_main_v18 (ix2 u o) = ix1 o :=
  funext fun a => Fin.ext (by match a with | ⟨0, _⟩ => rfl)
theorem idx_main_v32_at (b : Fin 16384) (o : Fin 2048) : idx_main_v32 (ix2 b o) = ix2 (0 : Fin 1) o :=
  funext fun a => Fin.ext (by match a with | ⟨0, _⟩ => rfl | ⟨1, _⟩ => rfl)
theorem idx_main_v31_at (u : Fin 1) (o : Fin 2048) : idx_main_v31 (ix2 u o) = ix1 o :=
  funext fun a => Fin.ext (by match a with | ⟨0, _⟩ => rfl)
theorem idx_main_v39_at (b : Fin 16384) (o : Fin 2048) : idx_main_v39 (ix2 b o) = ix2 (0 : Fin 1) o :=
  funext fun a => Fin.ext (by match a with | ⟨0, _⟩ => rfl | ⟨1, _⟩ => rfl)
theorem idx_main_v38_at (u : Fin 1) (o : Fin 2048) : idx_main_v38 (ix2 u o) = ix1 o :=
  funext fun a => Fin.ext (by match a with | ⟨0, _⟩ => rfl)
theorem idx_main_v44_at (b : Fin 16384) (o : Fin 2048) : idx_main_v44 (ix2 b o) = ix2 (0 : Fin 1) o :=
  funext fun a => Fin.ext (by match a with | ⟨0, _⟩ => rfl | ⟨1, _⟩ => rfl)
theorem idx_main_v43_at (u : Fin 1) (o : Fin 2048) : idx_main_v43 (ix2 u o) = ix1 o :=
  funext fun a => Fin.ext (by match a with | ⟨0, _⟩ => rfl)
theorem idx_main_v57_at (b : Fin 16384) (o : Fin 10) : idx_main_v57 (ix2 b o) = ix2 (0 : Fin 1) o :=
  funext fun a => Fin.ext (by match a with | ⟨0, _⟩ => rfl | ⟨1, _⟩ => rfl)
theorem idx_main_v56_at (u : Fin 1) (o : Fin 10) : idx_main_v56 (ix2 u o) = ix1 o :=
  funext fun a => Fin.ext (by match a with | ⟨0, _⟩ => rfl)

/-! ## The first layer -/

/-- The first weight matrix's signs, at (o, k). -/
theorem signsv4 (o : Fin 2048) (k : Fin 784) : val_main_v4 (F := Ideal) x1 (ix2 o k) = sgn (x1 (ix2 o k)) := by
  simp only [val_main_v4_apply, val_main_v3_apply, val_main_v2_apply, val_main_v1_apply, val_main_cst_apply, val_main_call0_v0_apply, val_main_call0_v1_apply, val_main_cst_0_apply, val_main_cst_1_apply]
  rfl

/-- The first dense layer at (b, o). -/
theorem dense_v8 (b : Fin 16384) (o : Fin 2048) :
    val_main_v8 (F := Ideal) x0 x1 x2 (ix2 b o) = dense (fun k => val_main_v0 (F := Ideal) x0 (ix2 b k)) (fun o k => sgn (x1 (ix2 o k))) (fun o => x2 (ix1 o)) o := by
  simp only [val_main_v8_apply, val_main_v5_apply, val_main_v7_apply, val_main_v6_apply, lidx_main_v5_at, ridx_main_v5_at, idx_main_v7_at, idx_main_v6_at, signsv4]
  rfl

/-- The first hidden layer's folded scale at o. -/
theorem scale_v12 (o : Fin 2048) : val_main_v12 (F := Ideal) x3 x6 (ix1 o) = bnScale (x3 (ix1 o)) (x6 (ix1 o)) := by
  simp only [val_main_v12_apply, val_main_v11_apply, val_main_v10_apply, val_main_v9_apply, val_main_cst_2_apply]
  rfl

/-- The first hidden layer's folded shift at o. -/
theorem shift_v17 (o : Fin 2048) : val_main_v17 (F := Ideal) x3 x4 x5 x6 (ix1 o) = bnShift (x4 (ix1 o)) (x5 (ix1 o)) (x3 (ix1 o)) (x6 (ix1 o)) := by
  simp only [val_main_v17_apply, val_main_v16_apply, scale_v12]
  rfl

/-- The first hidden layer at (b, o). -/
theorem hidden_v25 (b : Fin 16384) (o : Fin 2048) :
    val_main_v25 (F := Ideal) x0 x1 x2 x3 x4 x5 x6 (ix2 b o) = hidden (fun k => val_main_v0 (F := Ideal) x0 (ix2 b k)) (fun o k => sgn (x1 (ix2 o k))) (fun o => x2 (ix1 o)) (fun o => bnScale (x3 (ix1 o)) (x6 (ix1 o))) (fun o => bnShift (x4 (ix1 o)) (x5 (ix1 o)) (x3 (ix1 o)) (x6 (ix1 o))) o := by
  simp only [val_main_v25_apply, val_main_v24_apply, val_main_v23_apply, val_main_v22_apply, val_main_cst_5_apply, val_main_v21_apply, val_main_call1_v4_apply, val_main_call1_v3_apply, val_main_cst_4_apply, val_main_call1_v2_apply, val_main_call1_v1_apply, val_main_call1_v0_apply, val_main_cst_3_apply, val_main_v20_apply, val_main_v15_apply, val_main_v14_apply, val_main_v13_apply, val_main_v19_apply, val_main_v18_apply, val_main_call2_v0_apply, val_main_call2_v1_apply, val_main_cst_6_apply, val_main_cst_7_apply,
    idx_main_v14_at, idx_main_v13_at, idx_main_v19_at, idx_main_v18_at, dense_v8, scale_v12, shift_v17]
  rfl

/-! ## The second layer -/

/-- The second weight matrix's signs, at (o, k). -/
theorem signsv29 (o : Fin 2048) (k : Fin 2048) : val_main_v29 (F := Ideal) x7 (ix2 o k) = sgn (x7 (ix2 o k)) := by
  simp only [val_main_v29_apply, val_main_v28_apply, val_main_v27_apply, val_main_v26_apply, val_main_cst_8_apply, val_main_call3_v0_apply, val_main_call3_v1_apply, val_main_cst_9_apply, val_main_cst_10_apply]
  rfl

/-- The second dense layer at (b, o). -/
theorem dense_v33 (b : Fin 16384) (o : Fin 2048) :
    val_main_v33 (F := Ideal) x0 x1 x2 x3 x4 x5 x6 x7 x8 (ix2 b o) = dense (hidden (fun k => val_main_v0 (F := Ideal) x0 (ix2 b k)) (fun o k => sgn (x1 (ix2 o k))) (fun o => x2 (ix1 o)) (fun o => bnScale (x3 (ix1 o)) (x6 (ix1 o))) (fun o => bnShift (x4 (ix1 o)) (x5 (ix1 o)) (x3 (ix1 o)) (x6 (ix1 o)))) (fun o k => sgn (x7 (ix2 o k))) (fun o => x8 (ix1 o)) o := by
  simp only [val_main_v33_apply, val_main_v30_apply, val_main_v32_apply, val_main_v31_apply, lidx_main_v30_at, ridx_main_v30_at, idx_main_v32_at, idx_main_v31_at, signsv29, hidden_v25]
  rfl

/-- The second hidden layer's folded scale at o. -/
theorem scale_v37 (o : Fin 2048) : val_main_v37 (F := Ideal) x9 x12 (ix1 o) = bnScale (x9 (ix1 o)) (x12 (ix1 o)) := by
  simp only [val_main_v37_apply, val_main_v36_apply, val_main_v35_apply, val_main_v34_apply, val_main_cst_11_apply]
  rfl

/-- The second hidden layer's folded shift at o. -/
theorem shift_v42 (o : Fin 2048) : val_main_v42 (F := Ideal) x9 x10 x11 x12 (ix1 o) = bnShift (x10 (ix1 o)) (x11 (ix1 o)) (x9 (ix1 o)) (x12 (ix1 o)) := by
  simp only [val_main_v42_apply, val_main_v41_apply, scale_v37]
  rfl

/-- The second hidden layer at (b, o). -/
theorem hidden_v50 (b : Fin 16384) (o : Fin 2048) :
    val_main_v50 (F := Ideal) x0 x1 x2 x3 x4 x5 x6 x7 x8 x9 x10 x11 x12 (ix2 b o) = hidden (hidden (fun k => val_main_v0 (F := Ideal) x0 (ix2 b k)) (fun o k => sgn (x1 (ix2 o k))) (fun o => x2 (ix1 o)) (fun o => bnScale (x3 (ix1 o)) (x6 (ix1 o))) (fun o => bnShift (x4 (ix1 o)) (x5 (ix1 o)) (x3 (ix1 o)) (x6 (ix1 o)))) (fun o k => sgn (x7 (ix2 o k))) (fun o => x8 (ix1 o)) (fun o => bnScale (x9 (ix1 o)) (x12 (ix1 o))) (fun o => bnShift (x10 (ix1 o)) (x11 (ix1 o)) (x9 (ix1 o)) (x12 (ix1 o))) o := by
  simp only [val_main_v50_apply, val_main_v49_apply, val_main_v48_apply, val_main_v47_apply, val_main_cst_14_apply, val_main_v46_apply, val_main_call4_v4_apply, val_main_call4_v3_apply, val_main_cst_13_apply, val_main_call4_v2_apply, val_main_call4_v1_apply, val_main_call4_v0_apply, val_main_cst_12_apply, val_main_v45_apply, val_main_v40_apply, val_main_v39_apply, val_main_v38_apply, val_main_v44_apply, val_main_v43_apply, val_main_call5_v0_apply, val_main_call5_v1_apply, val_main_cst_15_apply, val_main_cst_16_apply,
    idx_main_v39_at, idx_main_v38_at, idx_main_v44_at, idx_main_v43_at, dense_v33, scale_v37, shift_v42]
  rfl

/-! ## The last layer and the scalar -/

/-- The third weight matrix's signs, at (o, k). -/
theorem signsv54 (o : Fin 10) (k : Fin 2048) : val_main_v54 (F := Ideal) x13 (ix2 o k) = sgn (x13 (ix2 o k)) := by
  simp only [val_main_v54_apply, val_main_v53_apply, val_main_v52_apply, val_main_v51_apply, val_main_cst_17_apply, val_main_call6_v0_apply, val_main_call6_v1_apply, val_main_cst_18_apply, val_main_cst_19_apply]
  rfl

/-- The result at (b, q): the last dense layer on the second hidden layer of row b, times the scalar. -/
theorem result_apply (b : Fin 16384) (q : Fin 10) :
    val_main_v60 (F := Ideal) x0 x1 x2 x3 x4 x5 x6 x7 x8 x9 x10 x11 x12 x13 x14 x15 (ix2 b q)
      = scaled (Params.ofArrays x1 x2 x3 x4 x5 x6 x7 x8 x9 x10 x11 x12 x13 x14) (val_main_v0 (F := Ideal) x0) (x15 ix0) (ix2 b q) := by
  simp only [val_main_v60_apply, val_main_v58_apply, val_main_v55_apply, val_main_v57_apply, val_main_v56_apply, val_main_v59_apply, lidx_main_v55_at, ridx_main_v55_at, idx_main_v57_at, idx_main_v56_at, signsv54, hidden_v50]
  rfl

/-- THE REFERENCE'S RESULT as one function of the arguments. -/
theorem result_eq :
    val_main_v60 (F := Ideal) x0 x1 x2 x3 x4 x5 x6 x7 x8 x9 x10 x11 x12 x13 x14 x15
      = scaled (Params.ofArrays x1 x2 x3 x4 x5 x6 x7 x8 x9 x10 x11 x12 x13 x14) (val_main_v0 (F := Ideal) x0) (x15 ix0) := by
  funext i
  obtain ⟨b, q, rfl⟩ : ∃ (b : Fin 16384) (q : Fin 10), i = ix2 b q := ⟨i 0, i 1, eq_ix2 i⟩
  exact result_apply x0 x1 x2 x3 x4 x5 x6 x7 x8 x9 x10 x11 x12 x13 x14 x15 b q

end Cert.ReferenceIdeal.RefValue

end
-- ==== Proof.lean ====
/-
  The certificate of a binarized three-layer perceptron (784 → 2048 → 2048 → 10 on a batch of 16384 rows): the kernel
  against its plain reference, over the extended reals.

  Both programs compute, for every row x of the flattened batch and every output unit q,

      scale · ( Σ_k h₂(x)_k · sgn(w3_{q,k}) + b3_q ),
      h_l(x)_o = sgn( clamp( ( Σ_k h_{l−1}(x)_k · sgn(w_l_{o,k}) + b_l_o ) · s_l_o + t_l_o ) ),   h₀(x) = x,

  where sgn sends an entry at least zero to +1 and every other to −1, clamp cuts to [−1, 1], and the folded batch
  normalization is s = γ · rsqrt(var + ε), t = β − μ · s with the same single-precision ε on both sides.

  The reference contracts the activations against the sign matrix on its last axis; the kernel is handed the sign
  matrix transposed (and narrowed: the identity on extended reals), and contracts 256 rows at a time into a zero
  block. Entry by entry both are the same finite sum of the same products, and everything else is entry by entry the
  same operation, so the two results are one function of the arguments. No law that needs finiteness is used: a sum
  is read as a sum in both programs and is never regrouped against a product.

  * Spec            — the network on one row, and the whole result as one function of the arguments;
  * KernelBody      — what the kernel body stores, entry by entry: the network on a row of its input block;
  * KernelWindows   — the arrays the windows stage, read back to the arguments;
  * KernelValue     — from the 64 blocks to the output array, and through the final multiplication;
  * RefValue        — the reference, stage by stage, is the same function;
  * LibRowDims      — a plain matrix product read at an entry.

  The three frames are the generated ones (the reference's is its generated run with the result dropped); the ideal
  pass rewrote nothing, so the kernel's idealization is its own text read at the ideal values.
-/
import proofs.«122004_j54013508715380_1_alg».proof.Defs
import proofs.«122004_j54013508715380_1_alg».proof.Proof.Gen.Kernel
import proofs.«122004_j54013508715380_1_alg».proof.Proof.Gen.Kernel.Skeleton
import proofs.«122004_j54013508715380_1_alg».proof.Proof.Gen.Kernel.Launch
import proofs.«122004_j54013508715380_1_alg».proof.Proof.Gen.Kernel.Points
import proofs.«122004_j54013508715380_1_alg».proof.Proof.Gen.Kernel.Frame
import proofs.«122004_j54013508715380_1_alg».proof.Proof.Gen.KernelIdeal
import proofs.«122004_j54013508715380_1_alg».proof.Proof.Gen.KernelIdeal.Skeleton
import proofs.«122004_j54013508715380_1_alg».proof.Proof.Gen.KernelIdeal.Launch
import proofs.«122004_j54013508715380_1_alg».proof.Proof.Gen.KernelIdeal.Points
import proofs.«122004_j54013508715380_1_alg».proof.Proof.Gen.KernelIdeal.Frame
import proofs.«122004_j54013508715380_1_alg».proof.Proof.Gen.ReferenceIdeal
import proofs.«122004_j54013508715380_1_alg».proof.Proof.Gen.Pre_finite_inputs
import proofs.«122004_j54013508715380_1_alg».proof.Proof.Gen.ReferenceIdeal.Run
import proofs.«122004_j54013508715380_1_alg».proof.Proof.Gen.ReferenceIdeal.Read
import proofs.«122004_j54013508715380_1_alg».proof.Proof.KernelValue
import proofs.«122004_j54013508715380_1_alg».proof.Proof.RefValue
import Idealize.ShloMosaic.Adequacy
import Idealize.ShloMosaic.Init

noncomputable section

namespace Cert.Proof

open Idealize.ShloMosaic Idealize.SL.Sem

namespace Claims

theorem frame_k : Cert.frame_Kernel := fun m ρ _ => Cert.Kernel.Gen.frame m ρ

theorem frame_ki : Cert.frame_KernelIdeal := fun m ρ _ => Cert.KernelIdeal.Gen.frame m ρ

/-- The reference's frame: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories that agree on the arguments, the kernel's result array (the logits of the flattened batch times
    the scalar: KernelValue) and the reference's (the same function: RefValue) are equal. -/
theorem algebraic : Cert.algebraic_KernelIdeal_ReferenceIdeal := by
  intro m ρ m' ρ' _ hagree
  refine ⟨fun c => Cert.Bnn.scaled (Cert.KernelIdeal.Windows.params m c) (Cert.KernelIdeal.Windows.rows m c)
    (Cert.KernelIdeal.Result.scalar m c), Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15⟩ := hagree c
  rw [Cert.ReferenceIdeal.Read.val_main_v60_eq, Cert.ReferenceIdeal.RefValue.result_eq, h0, h1, h2, h3, h4, h5, h6, h7, h8, h9, h10, h11, h12, h13, h14, h15]
  rfl

end Claims

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
